-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S131072 : Shape := ⟨1, ![131072]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn_part1 {F : FTy → Type} [FloatOps F] (main_v10 : IVec S_ 1) (main_v15 : IVec S131072 1) (main_c_5 : IVec S_ 1) : IVec S_ 1 :=
  let main_v16 : IVec S_ 1 := (fun x v => Host.reduce IntOp.andi x v reducesTo_S131072_S_d0 h_S_) main_v15 main_c_5
  let main_v17 : IVec S_ 1 := andi main_v10 main_v16
  main_v17

def fn {F : FTy → Type} [FloatOps F] (main_arg0 : FVec F S1024x8192 .f32) (main_arg1 : IVec S131072 32) (main_arg2 : IVec S131072 32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 32 := constantI S_ 32 8192#32
  let main_v6 : IVec S131072 32 := broadcastInDim S131072 ![] bcast_S_S131072 main_c_1
  let main_v7 : IVec S131072 1 := cmpi .slt main_arg1 main_v6
  let main_v8 : IVec S131072 1 := andi main_v5 main_v7
  let main_c_2 : IVec S_ 1 := constantI S_ 1 1#1
  let main_v9 : IVec S_ 1 := (fun x v => Host.reduce IntOp.andi x v reducesTo_S131072_S_d0 h_S_) main_v8 main_c_2
  let main_v10 : IVec S_ 1 := andi main_v3 main_v9
  let main_c_3 : IVec S_ 32 := constantI S_ 32 0#32
  let main_v11 : IVec S131072 32 := broadcastInDim S131072 ![] bcast_S_S131072 main_c_3
  let main_v12 : IVec S131072 1 := cmpi .sge main_arg2 main_v11
  let main_c_4 : IVec S_ 32 := constantI S_ 32 8192#32
  let main_v13 : IVec S131072 32 := broadcastInDim S131072 ![] bcast_S_S131072 main_c_4
  let main_v14 : IVec S131072 1 := cmpi .slt main_arg2 main_v13
  let main_v15 : IVec S131072 1 := andi main_v12 main_v14
  let main_c_5 : IVec S_ 1 := constantI S_ 1 1#1
  fn_part1 (F := F) main_v10 main_v15 main_c_5
-- ==== Kernel.lean ====
abbrev S1024x8192 : Shape := ⟨2, ![1024, 8192]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 27
  | .vmem => 7
  | .smem => 0
  | _ => 0

abbrev bufTy : (tb : Table) → Fin (tcTables nBuf tb) → BufTy
  | .hbm, ⟨0, _⟩ => ⟨S1024x8192, .f32⟩
  | .hbm, ⟨1, _⟩ => ⟨S131072, .i32⟩
  | .hbm, ⟨2, _⟩ => ⟨S131072, .i32⟩
  | .hbm, ⟨3, _⟩ => ⟨S_, .f32⟩
  | .hbm, ⟨4, _⟩ => ⟨S8192x8192, .f32⟩
  | .hbm, ⟨5, _⟩ => ⟨S_, .i32⟩
  | .hbm, ⟨6, _⟩ => ⟨S131072, .i32⟩
  | .hbm, ⟨7, _⟩ => ⟨S131072, .i1⟩
  | .hbm, ⟨8, _⟩ => ⟨S_, .i32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S131072x1, .i32⟩
  | .hbm, ⟨21, _⟩ => ⟨S131072x2, .i32⟩
  | .hbm, ⟨22, _⟩ => ⟨S_, .f32⟩
  | .hbm, ⟨23, _⟩ => ⟨S131072, .f32⟩
  | .hbm, ⟨24, _⟩ => ⟨S8192x8192, .f32⟩
  | .hbm, ⟨25, _⟩ => ⟨S8192x8192, .bf16⟩
  | .hbm, ⟨26, _⟩ => ⟨S1024x8192, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  scatter_S8192x8192_S131072x2_S131072_n_01_01_1_wf : ScatterDims.WF S8192x8192 S131072x2 S131072 [] [0, 1] [0, 1] 1
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x8192.size a
  hwx0_0 : ∀ i : grid0.Coords, EltTy.bits .f32 = 32 ∨ (Rect.block (s := S1024x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .bf16 = 32 ∨ (Rect.block (s := S8192x8192) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x8192.size a
  hwx0_2 : ∀ i : grid0.Coords, EltTy.bits .f32 = 32 ∨ (Rect.block (s := S1024x8192) S1024x2048.size (cc0_transform_2 i) (hinb0_2 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S131072 : Shape := ⟨1, ![131072]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S1024x131072 : Shape := ⟨2, ![1024, 131072]⟩
abbrev S131072x1024 : Shape := ⟨2, ![131072, 1024]⟩
abbrev S8192x1024 : Shape := ⟨2, ![8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S131072, .i32⟩
  | .hbm, ⟨2, _⟩ => ⟨S131072, .i32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S1, .i32⟩
  | .hbm, ⟨12, _⟩ => ⟨S_, .i32⟩
  | .hbm, ⟨13, _⟩ => ⟨S131072x1, .i32⟩
  | .hbm, ⟨14, _⟩ => ⟨S131072x1, .i1⟩
  | .hbm, ⟨15, _⟩ => ⟨S1x1, .i32⟩
  | .hbm, ⟨16, _⟩ => ⟨S131072x1, .i32⟩
  | .hbm, ⟨17, _⟩ => ⟨S131072x1, .i1⟩
  | .hbm, ⟨18, _⟩ => ⟨S131072x1, .i1⟩
  | .hbm, ⟨19, _⟩ => ⟨S_, .i1⟩
  | .hbm, ⟨20, _⟩ => ⟨S131072, .i1⟩
  | .hbm, ⟨21, _⟩ => ⟨S1024x131072, .f32⟩
  | .hbm, ⟨22, _⟩ => ⟨S1024x131072, .i1⟩
  | .hbm, ⟨23, _⟩ => ⟨S_, .f32⟩
  | .hbm, ⟨24, _⟩ => ⟨S1024x131072, .f32⟩
  | .hbm, ⟨25, _⟩ => ⟨S1024x131072, .f32⟩
  | .hbm, ⟨26, _⟩ => ⟨S_, .f32⟩
  | .hbm, ⟨27, _⟩ => ⟨S1024x131072, .f32⟩
  | .hbm, ⟨28, _⟩ => ⟨S1024x131072, .f32⟩
  | .hbm, ⟨29, _⟩ => ⟨S131072x1024, .f32⟩
  | .hbm, ⟨30, _⟩ => ⟨S_, .f32⟩
  | .hbm, ⟨31, _⟩ => ⟨S8192x1024, .f32⟩
  | .hbm, ⟨32, _⟩ => ⟨S131072x1, .i32⟩
  | .hbm, ⟨33, _⟩ => ⟨S8192x1024, .f32⟩
  | .hbm, ⟨34, _⟩ => ⟨S1024x8192, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S1024x131072_1 : S131072.BroadcastsInDim S1024x131072 (![1] : Fin 1 → Fin S1024x131072.rank)
  bcast_S_S1024x131072 : S_.BroadcastsInDim S1024x131072 (![] : Fin 0 → Fin S1024x131072.rank)
  transposes_S1024x131072_S131072x1024_1_0 : S1024x131072.Transposes [1, 0] S131072x1024
  bcast_S_S8192x1024 : S_.BroadcastsInDim S8192x1024 (![] : Fin 0 → Fin S8192x1024.rank)
  transposes_S8192x1024_S1024x8192_1_0 : S8192x1024.Transposes [1, 0] S1024x8192
  gather_S1024x8192_S131072x1_S1024x131072_0_1_n_n_1_1_10241_wf : GatherDims.WF S1024x8192 S131072x1 S1024x131072 [0] [1] [] [1] [] 1 ![1024, 1]
  scatter_S8192x1024_S131072x1_S131072x1024_1_0_0_1_wf : ScatterDims.WF S8192x1024 S131072x1 S131072x1024 [1] [0] [0] 1

variable [Facts₀]

def gather_S1024x8192_S131072x1_S1024x131072_0_1_n_n_1_1_10241 : GatherDims S1024x8192 S131072x1 S1024x131072 where
  offsetDims := [0]
  collapsedSliceDims := [1]
  operandBatchingDims := []
  startIndicesBatchingDims := []
  startIndexMap := [1]
  indexVectorDim := 1
  sliceSizes := ![1024, 1]
  wf := gather_S1024x8192_S131072x1_S1024x131072_0_1_n_n_1_1_10241_wf
def scatter_S8192x1024_S131072x1_S131072x1024_1_0_0_1 : ScatterDims S8192x1024 S131072x1 S131072x1024 where
  updateWindowDims := [1]
  insertedWindowDims := [0]
  scatterDimsToOperandDims := [0]
  indexVectorDim := 1
  wf := scatter_S8192x1024_S131072x1_S131072x1024_1_0_0_1_wf

class Facts : Prop extends Facts₀ where

variable [Facts]
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.SumLaw.lean ====
/-
  The arithmetic that joins the two programs, over the extended reals and with no program in sight.

  A sparse connectivity is a list of edges `e ↦ (P e, Q e)`, every edge of one weight `c ≥ 0`. Densified, it is the matrix
  `W k j = ∑ {e | P e = k ∧ Q e = j} c`, and a row `X` times that matrix is `∑ k, X k * W k j`. Read edge by edge, the same
  row is `∑ {e | Q e = j} c * X (P e)`. The two agree whenever every `P e` names a column of `X`: a product distributes over
  a sum of NONNEGATIVE extended reals whatever the other factor is, so nothing is asked of `X` (it may hold infinities),
  and regrouping the double sum by edges leaves, for each edge, the one column it points at.
-/
import Idealize.ShloMosaic.PureOps.Ideal
import Mathlib.Algebra.BigOperators.Fin

noncomputable section

namespace Cert.SumLaw

open Idealize.ShloMosaic

/-- The pattern `+0.0` denotes the extended real `0`. -/
theorem ofBits_zero : Ideal.ofBits .f32 0x00000000#32 = 0 := by
  simp [Ideal.ofBits, Ideal.ieee]

/-- The pattern of `100.0` denotes the real `100`. -/
theorem ofBits_hundred : Ideal.ofBits .f32 0x42C80000#32 = ((100 : ℝ) : EReal) := by
  simp [Ideal.ofBits, Ideal.ieee, -EReal.coe_mul]; norm_num

/-- … which is nonnegative. -/
theorem hundred_nonneg : (0 : EReal) ≤ Ideal.ofBits .f32 0x42C80000#32 := by
  rw [ofBits_hundred]; exact_mod_cast (by norm_num : (0 : ℝ) ≤ 100)

/-- A factor moves inside a finite sum of nonnegative extended reals, whatever the factor. -/
theorem mul_sum_of_nonneg {ι : Type} (s : Finset ι) (x : EReal) (f : ι → EReal) (hf : ∀ i ∈ s, 0 ≤ f i) :
    x * ∑ i ∈ s, f i = ∑ i ∈ s, x * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih (fun i hi => hf i (Finset.mem_insert_of_mem hi))]

/-- THE LAW. A row against the densified connectivity is the same row read edge by edge. -/
theorem dense_eq_edges {n E : ℕ} (X : Fin n → EReal) (P Q : Fin E → ℤ) (hP : ∀ e, 0 ≤ P e ∧ P e < n)
    (c : EReal) (hc : 0 ≤ c) (j : ℤ) :
    ∑ k : Fin n, X k * (∑ e ∈ Finset.univ.filter (fun e : Fin E => P e = (k.val : ℤ) ∧ Q e = j), c)
      = ∑ e ∈ Finset.univ.filter (fun e : Fin E => Q e = j),
          c * X ⟨(P e).toNat, by have := hP e; omega⟩ := by
  classical
  have h1 : ∀ k : Fin n, X k * (∑ e ∈ Finset.univ.filter (fun e : Fin E => P e = (k.val : ℤ) ∧ Q e = j), c)
      = ∑ e ∈ Finset.univ.filter (fun e : Fin E => Q e = j), (if P e = (k.val : ℤ) then X k * c else 0) := by
    intro k
    rw [mul_sum_of_nonneg _ _ _ (fun _ _ => hc), ← Finset.sum_filter, Finset.filter_filter]
    refine Finset.sum_congr ?_ (fun _ _ => rfl)
    ext e; simp only [Finset.mem_filter, Finset.mem_univ, true_and]; exact and_comm
  simp only [h1]
  rw [Finset.sum_comm]
  refine Finset.sum_congr rfl (fun e _ => ?_)
  have hPe := hP e
  rw [Finset.sum_eq_single (⟨(P e).toNat, by omega⟩ : Fin n)]
  · rw [if_pos (by show P e = ((P e).toNat : ℤ); omega), mul_comm]
  · intro k _ hk
    rw [if_neg]
    intro h
    exact hk (Fin.ext (by show k.val = (P e).toNat; omega))
  · intro h; exact absurd (Finset.mem_univ _) h

/-! ## A contraction taken sixteen blocks of 512 at a time -/

/-- The sum of the first `n` blocks of 512 consecutive terms of `f` (a block past the sixteenth wraps round: never used). -/
def blockSum (f : Fin 8192 → EReal) (n : ℕ) : EReal :=
  ∑ ks ∈ Finset.range n, ∑ kk : Fin 512, f ⟨(512 * ks + kk.val) % 8192, Nat.mod_lt _ (by norm_num)⟩

theorem blockSum_zero (f : Fin 8192 → EReal) : blockSum f 0 = 0 := Finset.sum_range_zero _

/-- One more block. -/
theorem blockSum_succ (f : Fin 8192 → EReal) (n : ℕ) :
    blockSum f (n + 1) = blockSum f n + ∑ kk : Fin 512, f ⟨(512 * n + kk.val) % 8192, Nat.mod_lt _ (by norm_num)⟩ :=
  Finset.sum_range_succ _ _

/-- Sixteen blocks of 512 are all 8192 terms, each once. -/
theorem blockSum_full (f : Fin 8192 → EReal) : blockSum f 16 = ∑ k : Fin 8192, f k := by
  unfold blockSum
  rw [Finset.sum_range (fun ks => ∑ kk : Fin 512, f ⟨(512 * ks + kk.val) % 8192, Nat.mod_lt _ (by norm_num)⟩)]
  rw [← Fintype.sum_prod_type' (fun (ks : Fin 16) (kk : Fin 512) =>
    f ⟨(512 * ks.val + kk.val) % 8192, Nat.mod_lt _ (by norm_num)⟩)]
  exact Fintype.sum_equiv (finProdFinEquiv : Fin 16 × Fin 512 ≃ Fin 8192) _ _ (fun p => by
    congr 1
    apply Fin.ext
    have h1 := p.1.isLt
    have h2 := p.2.isLt
    show (512 * p.1.val + p.2.val) % 8192 = p.2.val + 512 * p.1.val
    omega)

end Cert.SumLaw

end
-- ==== Proof.KernelSum.lean ====
/-
  What the kernel's result array holds after the run, as ONE function of the arrays the matrix product finds.

  The grid is 4 column blocks (2048 columns of the result each) by 16 steps along the contraction (512 of the 8192
  contracted coordinates each); point `t` is column block `t / 16`, step `t % 16`. A scratch block carries the running sum
  between the steps of one column block: step 0 clears it and adds its product, every later step adds its product to what
  the step before left, and every step copies the scratch into the result's block; that block is written back after step
  15 only. So after step `s` the scratch — and the result's block — hold, at (b, jj), the sum over the first `s + 1` blocks
  of 512 of `x (b, k) * w (k, 2048 * (t / 16) + jj)`, by induction on the point; after step 15 that is the whole
  contraction, and the four column blocks tile the result: it ends holding `∑ k, x (b, k) * w (k, j)` at every (b, j).
-/
import proofs.«431134_j2121713844698_1_alg».proof.Proof.Gen.KernelIdeal.Value
import proofs.«431134_j2121713844698_1_alg».proof.Proof.LibPlainDot
import proofs.«431134_j2121713844698_1_alg».proof.Proof.SumLaw
import Idealize.ShloMosaic.Lib.Pipeline.Value
import Idealize.ShloMosaic.Lib.ValueIdx
import Idealize.ShloMosaic.Lib.Tactic

noncomputable section

namespace Cert.KernelIdeal.Sum

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

/-! ## What one step leaves, for any float values -/

section pieces

variable {F : FTy → Type} [FloatOps F]

theorem hz : (![0, 0] : Fin 2 → Nat) = fun _ => 0 := funext fun a => by fin_cases a <;> rfl

/-- A step that is not the first of its column block leaves in the scratch what it held plus the step's product. -/
theorem scratch_later (c : Dev nD) (i : grid0.Coords) (a2 : Memref sig .tc .vmem S1024x512 .f32) (h2 : a2.IsWhole)
    (a3 : Memref sig .tc .vmem S512x2048 .bf16) (h3 : a3.IsWhole) (a4 : Memref sig .tc .vmem S1024x2048 .f32) (h4 : a4.IsWhole)
    (a5 : Memref sig .tc .vmem S1024x2048 .f32) (h5 : a5.IsWhole) (hc : ¬cond0_0 i)
    (x0 : Vec F S1024x512 .f32) (x1 : Vec F S512x2048 .bf16) (xs0 : Vec F S1024x2048 .f32) :
    sout0_B_0 c i a2 h2 a3 h3 a4 h4 a5 h5 hc x0 x1 xs0 = k0_pay2 x0 xs0 x1 := by
  unfold sout0_B_0
  rw [View.read_writes_eq_canon _ _ _ (scover0_B_0 c i a2 h2 a3 h3 a4 h4 a5 h5 hc x0 x1 xs0)]
  unfold kernelRun0_B
  dsimp only
  sl_unfold_words
  rw [View.canon_unit_zero hz]
  simp only [View.readAt_eq_ld, h2.read_unread, h3.read_unread, h5.read_unread, View.ld_unit_zero (S := S1024x512) hz,
    View.ld_unit_zero (S := S512x2048) hz, View.ld_unit_zero (S := S1024x2048) hz]

/-- … and the same in the result's block, which is a copy of the scratch. -/
theorem block_later (c : Dev nD) (i : grid0.Coords) (a2 : Memref sig .tc .vmem S1024x512 .f32) (h2 : a2.IsWhole)
    (a3 : Memref sig .tc .vmem S512x2048 .bf16) (h3 : a3.IsWhole) (a4 : Memref sig .tc .vmem S1024x2048 .f32) (h4 : a4.IsWhole)
    (a5 : Memref sig .tc .vmem S1024x2048 .f32) (h5 : a5.IsWhole) (hc : ¬cond0_0 i)
    (x0 : Vec F S1024x512 .f32) (x1 : Vec F S512x2048 .bf16) (xs0 : Vec F S1024x2048 .f32) :
    out0_B_2 c i a2 h2 a3 h3 a4 h4 a5 h5 hc x0 x1 xs0 = k0_pay2 x0 xs0 x1 := by
  unfold out0_B_2
  rw [View.read_writes_eq_canon _ _ _ (cover0_B_2 c i a2 h2 a3 h3 a4 h4 a5 h5 hc x0 x1 xs0)]
  unfold kernelRun0_B
  dsimp only
  sl_unfold_words
  rw [View.canon_unit_zero hz]
  simp only [View.readAt_eq_ld, h2.read_unread, h3.read_unread, h5.read_unread, View.ld_unit_zero (S := S1024x512) hz,
    View.ld_unit_zero (S := S512x2048) hz, View.ld_unit_zero (S := S1024x2048) hz, View.readCov_unit_zero (S := S1024x2048) _ hz]

/-- The first step of a column block clears the scratch and leaves the zero block plus the step's product. -/
theorem scratch_first (c : Dev nD) (i : grid0.Coords) (a2 : Memref sig .tc .vmem S1024x512 .f32) (h2 : a2.IsWhole)
    (a3 : Memref sig .tc .vmem S512x2048 .bf16) (h3 : a3.IsWhole) (a4 : Memref sig .tc .vmem S1024x2048 .f32) (h4 : a4.IsWhole)
    (a5 : Memref sig .tc .vmem S1024x2048 .f32) (h5 : a5.IsWhole) (hc : cond0_0 i)
    (x0 : Vec F S1024x512 .f32) (x1 : Vec F S512x2048 .bf16) :
    sout0_A_0 c i a2 h2 a3 h3 a4 h4 a5 h5 hc x0 x1 = k0_pay2 x0 (k0_pay1 (F := F)) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S1024x2048) hz]
  simp only [View.readAt_eq_ld, h2.read_unread, h3.read_unread, h5.read_unread, View.ld_unit_zero (S := S1024x512) hz,
    View.ld_unit_zero (S := S512x2048) hz, View.ld_unit_zero (S := S1024x2048) hz, View.readCov_unit_zero (S := S1024x2048) _ hz]

/-- … and the same in the result's block. -/
theorem block_first (c : Dev nD) (i : grid0.Coords) (a2 : Memref sig .tc .vmem S1024x512 .f32) (h2 : a2.IsWhole)
    (a3 : Memref sig .tc .vmem S512x2048 .bf16) (h3 : a3.IsWhole) (a4 : Memref sig .tc .vmem S1024x2048 .f32) (h4 : a4.IsWhole)
    (a5 : Memref sig .tc .vmem S1024x2048 .f32) (h5 : a5.IsWhole) (hc : cond0_0 i)
    (x0 : Vec F S1024x512 .f32) (x1 : Vec F S512x2048 .bf16) :
    out0_A_2 c i a2 h2 a3 h3 a4 h4 a5 h5 hc x0 x1 = k0_pay2 x0 (k0_pay1 (F := F)) x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, h5.read_unread, View.ld_unit_zero (S := S1024x512) hz,
    View.ld_unit_zero (S := S512x2048) hz, View.ld_unit_zero (S := S1024x2048) hz, View.readCov_unit_zero (S := S1024x2048) _ hz, View.readCov_cons_toLoadRect]

end pieces

end Cert.KernelIdeal.Sum

end
-- ==== Proof.KernelAcc.lean ====
/-
  The running sum, point by point. `acc n` is what the scratch block — and the result's staging block, its copy — hold
  after point `n`: at the first step of a column block (n ≡ 0 mod 16) the zero block plus that step's product, at any
  other step what point `n - 1` left plus that step's product. That the run's own record of the two buffers is this
  pair is an induction on the point over the two cases of the body.
-/
import proofs.«431134_j2121713844698_1_alg».proof.Proof.KernelSum

noncomputable section

namespace Cert.KernelIdeal.Sum

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The block of `x` point `t` reads: all 1024 rows, 512 contracted coordinates. -/
abbrev xblk (c : Dev nD) (t : Fin cfg0.N) : Vec F S1024x512 .f32 := iblk m c 0 t
/-- The block of the dense matrix point `t` reads: 512 contracted coordinates by 2048 columns. -/
abbrev wblk (c : Dev nD) (t : Fin cfg0.N) : Vec F S512x2048 .bf16 := iblk m c 1 t

/-- What the scratch and the result's block hold after point `n`. -/
def acc (c : Dev nD) : (n : ℕ) → n < cfg0.N → Vec F S1024x2048 .f32
  | 0, h => k0_pay2 (xblk m c ⟨0, h⟩) (k0_pay1 (F := F)) (wblk m c ⟨0, h⟩)
  | n + 1, h =>
    if (n + 1) % 16 = 0 then k0_pay2 (xblk m c ⟨n + 1, h⟩) (k0_pay1 (F := F)) (wblk m c ⟨n + 1, h⟩)
    else k0_pay2 (xblk m c ⟨n + 1, h⟩) (acc c n (Nat.lt_of_succ_lt h)) (wblk m c ⟨n + 1, h⟩)

theorem acc_first (c : Dev nD) (n : ℕ) (h : n < cfg0.N) (h0 : n % 16 = 0) :
    acc m c n h = k0_pay2 (xblk m c ⟨n, h⟩) (k0_pay1 (F := F)) (wblk m c ⟨n, h⟩) := by
  cases n with
  | zero => rfl
  | succ n => exact if_pos h0

theorem acc_later (c : Dev nD) (n : ℕ) (h : n + 1 < cfg0.N) (h0 : ¬(n + 1) % 16 = 0) :
    acc m c (n + 1) h = k0_pay2 (xblk m c ⟨n + 1, h⟩) (acc m c n (Nat.lt_of_succ_lt h)) (wblk m c ⟨n + 1, h⟩) :=
  if_neg h0

/-- The run's record at the first step of a column block: the zero block plus the step's product, in both buffers. -/
theorem outsAt_first (c : Dev nD) (t : Fin cfg0.N) (h0 : t.val % 16 = 0) :
    outsAt0 m c t.val t.isLt
      = (k0_pay2 (xblk m c t) (k0_pay1 (F := F)) (wblk m c t), k0_pay2 (xblk m c t) (k0_pay1 (F := F)) (wblk m c t)) := by
  rw [outsAt0_A m c t h0]
  exact congrArg₂ Prod.mk
    (block_first c (grid0.coords t) (ms0_0 t) (hs0_0 t) (ms0_1 t) (hs0_1 t) (ms0_2 t) (hs0_2 t) scM0_0 (Memref.isWhole_whole _)
      ((hcond0_0 t).mpr h0) (iblk m c 0 t) (iblk m c 1 t))
    (scratch_first c (grid0.coords t) (ms0_0 t) (hs0_0 t) (ms0_1 t) (hs0_1 t) (ms0_2 t) (hs0_2 t) scM0_0 (Memref.isWhole_whole _)
      ((hcond0_0 t).mpr h0) (iblk m c 0 t) (iblk m c 1 t))

/-- The run's record at a later step: what the scratch held after the point before, plus the step's product, in both buffers. -/
theorem outsAt_later (c : Dev nD) (t : Fin cfg0.N) (h0 : ¬t.val % 16 = 0) :
    outsAt0 m c t.val t.isLt
      = (k0_pay2 (xblk m c t) (outsAt0 m c (t.val - 1) (Nat.lt_of_le_of_lt (Nat.sub_le _ _) t.isLt)).2 (wblk m c t),
         k0_pay2 (xblk m c t) (outsAt0 m c (t.val - 1) (Nat.lt_of_le_of_lt (Nat.sub_le _ _) t.isLt)).2 (wblk m c t)) := by
  rw [outsAt0_B m c t h0]
  exact congrArg₂ Prod.mk
    (block_later c (grid0.coords t) (ms0_0 t) (hs0_0 t) (ms0_1 t) (hs0_1 t) (ms0_2 t) (hs0_2 t) scM0_0 (Memref.isWhole_whole _)
      (fun h => h0 ((hcond0_0 t).mp h)) (iblk m c 0 t) (iblk m c 1 t)
      (outsAt0 m c (t.val - 1) (Nat.lt_of_le_of_lt (Nat.sub_le _ _) t.isLt)).2)
    (scratch_later c (grid0.coords t) (ms0_0 t) (hs0_0 t) (ms0_1 t) (hs0_1 t) (ms0_2 t) (hs0_2 t) scM0_0 (Memref.isWhole_whole _)
      (fun h => h0 ((hcond0_0 t).mp h)) (iblk m c 0 t) (iblk m c 1 t)
      (outsAt0 m c (t.val - 1) (Nat.lt_of_le_of_lt (Nat.sub_le _ _) t.isLt)).2)

/-- The run's record of the two buffers after point `n` is the running sum, twice. -/
theorem outsAt_eq (c : Dev nD) : ∀ (n : ℕ) (h : n < cfg0.N), outsAt0 m c n h = (acc m c n h, acc m c n h)
  | 0, h => (outsAt_first m c ⟨0, h⟩ rfl).trans (by rw [acc_first m c 0 h rfl])
  | n + 1, h => by
    by_cases h0 : (n + 1) % 16 = 0
    · exact (outsAt_first m c ⟨n + 1, h⟩ h0).trans (by rw [acc_first m c (n + 1) h h0])
    · refine (outsAt_later m c ⟨n + 1, h⟩ h0).trans ?_
      rw [acc_later m c n h h0]
      show (k0_pay2 _ (outsAt0 m c n _).2 _, k0_pay2 _ (outsAt0 m c n _).2 _) = _
      rw [outsAt_eq c n (Nat.lt_of_succ_lt h)]

end Cert.KernelIdeal.Sum

end
-- ==== Proof.KernelFinal.lean ====
/-
  The kernel's result array, at the ideal values, index by index.

  One step at (b, jj) is `a (b, jj) + ∑ kk, xblk (b, kk) * wblk (kk, jj)` (the matrix unit's product into a zero
  accumulator is the plain sum over the contracted coordinate; a conversion of format is the identity), and point `t`'s
  blocks are `x` at columns `512 * (t % 16) + kk` and the dense matrix at rows `512 * (t % 16) + kk`, columns
  `2048 * (t / 16) + jj`. So the running sum after point `n` is the sum of the first `n % 16 + 1` blocks of 512 products,
  after step 15 all 8192 of them; the write-backs happen after step 15 of each column block, and the four column blocks
  tile the result.
-/
import proofs.«431134_j2121713844698_1_alg».proof.Proof.KernelAcc

noncomputable section

namespace Cert.KernelIdeal.Sum

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- `x` as the matrix product finds it. -/
abbrev xarr (c : Dev nD) : Vec Ideal S1024x8192 .f32 := V m c main_arg0
/-- The dense matrix as the matrix product finds it. -/
abbrev warr (c : Dev nD) : Vec Ideal S8192x8192 .bf16 := V m c main_v16

/-- The index maps, decided over the 64 points: `x`'s block moves along the contraction with the step; the dense matrix's
    block has the step for its row block and the column block for its column block; the result's block is the column block. -/
theorem idx_facts : ∀ t : Fin cfg0.N, win0_0.index t (0 : Fin 2) = 0 ∧ win0_0.index t (1 : Fin 2) = t.val % 16
    ∧ win0_1.index t (0 : Fin 2) = t.val % 16 ∧ win0_1.index t (1 : Fin 2) = t.val / 16
    ∧ win0_2.index t (0 : Fin 2) = 0 ∧ win0_2.index t (1 : Fin 2) = t.val / 16 :=
  (by decide +kernel : ∀ t : Fin grid0.N, _)

/-- The contracted coordinate `kk` of step `s`'s block, in the whole contraction. -/
abbrev kOf (s : ℕ) (kk : Fin 512) : Fin 8192 := ⟨(512 * s + kk.val) % 8192, Nat.mod_lt _ (by norm_num)⟩
/-- Column `jj` of column block `q`, in the whole result. -/
abbrev colOf (q : ℕ) (jj : Fin 2048) : Fin 8192 := ⟨(2048 * q + jj.val) % 8192, Nat.mod_lt _ (by norm_num)⟩

/-- Point `t`'s block of `x`, at (b, kk), is `x` at (b, 512 * (t % 16) + kk). -/
theorem xblk_apply (c : Dev nD) (t : Fin cfg0.N) (b : Fin 1024) (kk : Fin 512) :
    xblk m c t (ix2 b kk) = xarr m c (ix2 b (kOf (t.val % 16) kk)) := by
  obtain ⟨e0, e1, -⟩ := idx_facts t
  have hN : t.val < 64 := lt_of_lt_of_eq t.isLt (show cfg0.N = 64 from N_0)
  show V m c main_arg0 (((cfg0.win 0).blk t).view.emb (ix2 b kk)) = V m c main_arg0 (ix2 b (kOf (t.val % 16) kk))
  congr 1
  funext a; apply Fin.ext
  match a with
  | ⟨0, _⟩ => show win0_0.index t (0 : Fin 2) * 1024 + 1 * b.val = b.val; rw [e0]; omega
  | ⟨1, _⟩ => show win0_0.index t (1 : Fin 2) * 512 + 1 * kk.val = (512 * (t.val % 16) + kk.val) % 8192
              rw [e1]; have := kk.isLt; omega

/-- Point `t`'s block of the dense matrix, at (kk, jj), is the matrix at (512 * (t % 16) + kk, 2048 * (t / 16) + jj). -/
theorem wblk_apply (c : Dev nD) (t : Fin cfg0.N) (kk : Fin 512) (jj : Fin 2048) :
    wblk m c t (ix2 kk jj) = warr m c (ix2 (kOf (t.val % 16) kk) (colOf (t.val / 16) jj)) := by
  obtain ⟨-, -, e0, e1, -⟩ := idx_facts t
  have hN : t.val < 64 := lt_of_lt_of_eq t.isLt (show cfg0.N = 64 from N_0)
  show V m c main_v16 (((cfg0.win 1).blk t).view.emb (ix2 kk jj)) = V m c main_v16 (ix2 (kOf (t.val % 16) kk) (colOf (t.val / 16) jj))
  congr 1
  funext a; apply Fin.ext
  match a with
  | ⟨0, _⟩ => show win0_1.index t (0 : Fin 2) * 512 + 1 * kk.val = (512 * (t.val % 16) + kk.val) % 8192
              rw [e0]; have := kk.isLt; omega
  | ⟨1, _⟩ => show win0_1.index t (1 : Fin 2) * 2048 + 1 * jj.val = (2048 * (t.val / 16) + jj.val) % 8192
              rw [e1]; have := jj.isLt; omega

/-- The zero block, at any index, is `0`. -/
theorem zero_apply (i : S1024x2048.Idx) : k0_pay1 (F := Ideal) i = 0 := by
  unfold k0_pay1
  simp only [shapeCast_self]
  exact Cert.SumLaw.ofBits_zero

/-- ONE STEP at (b, jj): what the block held there plus the sum over the step's 512 contracted coordinates. -/
theorem step_apply (x : Vec Ideal S1024x512 .f32) (a : Vec Ideal S1024x2048 .f32) (w : Vec Ideal S512x2048 .bf16)
    (b : Fin 1024) (jj : Fin 2048) :
    k0_pay2 (F := Ideal) x a w (ix2 b jj) = a (ix2 b jj) + ∑ kk : Fin 512, x (ix2 b kk) * w (ix2 kk jj) := by
  unfold k0_pay2
  simp only [shapeCast_self]
  refine (congrArg (a (ix2 b jj) + ·) (Cert.LibPlainDot.matmul_zero_apply dot_S1024x512_S512x2048_S1024x2048_1_0_0_1_n_n rfl none
    (truncf .bf16 x bitsLt_bf16_f32) w b jj)).trans ?_
  rfl

/-- The products the running sum at row `b`, column `j` adds up, by contracted coordinate. -/
abbrev term (c : Dev nD) (b : Fin 1024) (j : Fin 8192) : Fin 8192 → EReal :=
  fun k => xarr m c (ix2 b k) * warr m c (ix2 k j)

/-- THE RUNNING SUM at (b, jj) after point `n`: the first `n % 16 + 1` blocks of 512 products of column `2048 * (n / 16) + jj`. -/
theorem acc_apply (c : Dev nD) : ∀ (n : ℕ) (h : n < cfg0.N) (b : Fin 1024) (jj : Fin 2048),
    acc m c n h (ix2 b jj) = Cert.SumLaw.blockSum (term m c b (colOf (n / 16) jj)) (n % 16 + 1) := by
  intro n
  induction n with
  | zero =>
    intro h b jj
    rw [acc_first m c 0 h rfl, step_apply, zero_apply, zero_add, Cert.SumLaw.blockSum_succ, Cert.SumLaw.blockSum_zero, zero_add]
    refine Finset.sum_congr rfl (fun kk _ => ?_)
    rw [xblk_apply, wblk_apply]
  | succ n ih =>
    intro h b jj
    have hN : n + 1 < 64 := lt_of_lt_of_eq h (show cfg0.N = 64 from N_0)
    by_cases h0 : (n + 1) % 16 = 0
    · rw [acc_first m c (n + 1) h h0, step_apply, zero_apply, zero_add, h0, Cert.SumLaw.blockSum_succ, Cert.SumLaw.blockSum_zero, zero_add]
      refine Finset.sum_congr rfl (fun kk _ => ?_)
      rw [xblk_apply, wblk_apply]
      show xarr m c (ix2 b (kOf ((n + 1) % 16) kk)) * warr m c (ix2 (kOf ((n + 1) % 16) kk) (colOf ((n + 1) / 16) jj)) = _
      rw [h0]
    · rw [acc_later m c n h h0, step_apply, ih (Nat.lt_of_succ_lt h) b jj]
      have e1 : (n + 1) % 16 = n % 16 + 1 := by omega
      have e2 : (n + 1) / 16 = n / 16 := by omega
      rw [e1, e2, Cert.SumLaw.blockSum_succ (term m c b (colOf (n / 16) jj)) (n % 16 + 1)]
      congr 1
      refine Finset.sum_congr rfl (fun kk _ => ?_)
      rw [xblk_apply, wblk_apply]
      show xarr m c (ix2 b (kOf ((n + 1) % 16) kk)) * warr m c (ix2 (kOf ((n + 1) % 16) kk) (colOf ((n + 1) / 16) jj)) = _
      rw [e1, e2]

/-- What the result array ends holding: row `b` of `x` against column `j` of the dense matrix. -/
def Gfun (c : Dev nD) : S1024x8192.Idx → EReal :=
  fun i => ∑ k : Fin 8192, xarr m c (ix2 (i 0) k) * warr m c (ix2 k (i 1))

/-- The same, as contents of the result's buffer. -/
abbrev G (c : Dev nD) : Buf (Elt Ideal) ((c : Thread nD τ).loc main_v17) := Gfun m c

/-- WHAT A WRITE-BACK WRITES: after step 15 of a column block, that block of `G`. -/
theorem flushed_eq (c : Dev nD) (t : Fin cfg0.N) (hf : (cfg0.win 2).flush t = true) :
    (dats m 0 c).flushed 2 t = ((cfg0.win 2).blk t).view.read (Elt Ideal) (G m c) := by
  have h15 : t.val % 16 = 15 := (flush0_2 t).mp hf
  have hN : t.val < 64 := lt_of_lt_of_eq t.isLt (show cfg0.N = 64 from N_0)
  obtain ⟨-, -, -, -, e0, e1⟩ := idx_facts t
  rw [flushed2, outsAt_eq]
  funext y
  obtain ⟨b, jj, rfl⟩ : ∃ (b : Fin 1024) (jj : Fin 2048), y = ix2 b jj := ⟨y 0, y 1, eq_ix2 y⟩
  show acc m c t.val t.isLt (ix2 b jj) = G m c (((cfg0.win 2).blk t).view.emb (ix2 b jj))
  have hemb : ((cfg0.win 2).blk t).view.emb (ix2 b jj) = ix2 b (colOf (t.val / 16) jj) := by
    funext a; apply Fin.ext
    match a with
    | ⟨0, _⟩ => show win0_2.index t (0 : Fin 2) * 1024 + 1 * b.val = b.val; rw [e0]; omega
    | ⟨1, _⟩ => show win0_2.index t (1 : Fin 2) * 2048 + 1 * jj.val = (2048 * (t.val / 16) + jj.val) % 8192
                rw [e1]; have := jj.isLt; omega
  rw [hemb, acc_apply, h15]
  exact Cert.SumLaw.blockSum_full _

/-- An index of the result is in point `t`'s block iff each coordinate is in the block's range on its axis. -/
theorem mem_blk (t : Fin cfg0.N) (i : S1024x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v17).slice (win0_2.rect t)).set ↔ _
  rw [View.set_slice_whole, Rect.mem_set_unit]
  exact Iff.rfl

/-- Every index of the result is in the block some write-back writes: column `j` is in column block `j / 2048`, written
    back after its step 15. -/
theorem cover (i : S1024x8192.Idx) :
    ∃ t : Fin cfg0.N, (cfg0.win 2).flush t = true ∧ i ∈ ((cfg0.win 2).blk t).view.set := by
  have hi0 : (i 0).val < 1024 := (i 0).isLt
  have hi1 : (i 1).val < 8192 := (i 1).isLt
  have hlt : 16 * ((i 1).val / 2048) + 15 < cfg0.N := by rw [show cfg0.N = 64 from N_0]; omega
  refine ⟨⟨16 * ((i 1).val / 2048) + 15, hlt⟩, (flush0_2 _).mpr (by show (16 * ((i 1).val / 2048) + 15) % 16 = 15; omega), ?_⟩
  obtain ⟨-, -, -, -, e0, e1⟩ := idx_facts ⟨16 * ((i 1).val / 2048) + 15, hlt⟩
  rw [mem_blk]
  intro a
  match a with
  | ⟨0, _⟩ => show win0_2.index _ (0 : Fin 2) * 1024 ≤ (i 0).val ∧ (i 0).val < win0_2.index _ (0 : Fin 2) * 1024 + 1024
              rw [e0]; omega
  | ⟨1, _⟩ => show win0_2.index _ (1 : Fin 2) * 2048 ≤ (i 1).val ∧ (i 1).val < win0_2.index _ (1 : Fin 2) * 2048 + 2048
              rw [e1]; show (16 * ((i 1).val / 2048) + 15) / 16 * 2048 ≤ (i 1).val ∧ (i 1).val < (16 * ((i 1).val / 2048) + 15) / 16 * 2048 + 2048
              omega

/-- THE RESULT ARRAY after the run. -/
theorem final (c : Dev nD) : (dats m 0 c).arrAt 2 cfg0.N = G m c :=
  (dats m 0 c).arrAt_eq_of_cover 2 (G m c) (flushed_eq m c) cover

/-- The run, read: the result array at `G`, the arguments unchanged. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Sum

end
-- ==== Proof.KernelHostTerm.lean ====
/-
  What the kernel's program computes on the host before it launches the matrix product, as ONE pure term of the two index
  arrays: `wrap` (a negative index counted from the end), `pairs` (the [131072, 2] array of (row, column) pairs) and
  `dense` (the 8192 × 8192 matrix that holds, at (k, j), one hundred per edge whose pair is (k, j), as bf16).
-/
import proofs.«431134_j2121713844698_1_alg».proof.KernelIdeal

noncomputable section

namespace Cert.KernelIdeal.Term

open Idealize.ShloMosaic Cert.KernelIdeal Cert.KernelIdeal.Facts₀

variable {F : FTy → Type} [FloatOps F] [Cert.KernelIdeal.Facts]

/-- `where(p < 0, p + 8192, p)`: a negative index counts from the end of the 8192 rows or columns. -/
def wrap (p : IVec S131072 32) : IVec S131072 32 :=
  select (cmpi .slt p (broadcastInDim S131072 ![] bcast_S_S131072 (constantI S_ 32 0#32)))
    (addi p (broadcastInDim S131072 ![] bcast_S_S131072 (constantI S_ 32 8192#32))) p

/-- The (row, column) pair of every edge: the wrapped first index array beside the wrapped second. -/
def pairs (p q : IVec S131072 32) : IVec S131072x2 32 :=
  concatenate S131072x2 1
    [⟨S131072x1, broadcastInDim S131072x1 ![0] bcast_S131072_S131072x1_0 (wrap p)⟩,
     ⟨S131072x1, broadcastInDim S131072x1 ![0] bcast_S131072_S131072x1_0 (wrap q)⟩]
    concatenates_S131072x1_S131072x1_S131072x2_d1

/-- The densified connectivity: zeros, plus one hundred at every edge's pair, converted to bf16. -/
def dense (p q : IVec S131072 32) : FVec F S8192x8192 .bf16 :=
  truncf .bf16
    (Host.scatterAdd scatter_S8192x8192_S131072x2_S131072_n_01_01_1
      (broadcastInDim S8192x8192 ![] bcast_S_S8192x8192 (constant S_ .f32 0x00000000#32))
      (pairs p q)
      (broadcastInDim S131072 ![] bcast_S_S131072 (constant S_ .f32 0x42C80000#32)))
    bitsLt_bf16_f32

end Cert.KernelIdeal.Term

end
-- ==== Proof.KernelHost.lean ====
/-
  The dense matrix the matrix product finds is the host prefix's term of the two index arrays: the 24 host operations
  before the launch, composed.
-/
import proofs.«431134_j2121713844698_1_alg».proof.Proof.Gen.KernelIdeal.Frame
import proofs.«431134_j2121713844698_1_alg».proof.Proof.KernelHostTerm
import Idealize.ShloMosaic.Lib.StableHlo.Run

noncomputable section

namespace Cert.KernelIdeal.Sum

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- When the launch is reached the buffer of the converted scatter holds `Term.dense` of the launch contents of the two
    index arrays. -/
theorem V_dense (c : Dev nD) :
    (V m c main_v16 : Vec F S8192x8192 .bf16)
      = Term.dense (m ((c : Thread nD τ).loc main_arg1)) (m ((c : Thread nD τ).loc main_arg2)) := by
  dsimp only [V, hostOps0]
  after_results_simp
  rfl

end Cert.KernelIdeal.Sum

end
-- ==== Proof.KernelResult.lean ====
/-
  The kernel's run with its result named by the arguments alone: row `b` of the launch contents of `x` against column `j`
  of the dense matrix of the launch contents of the two index arrays.
-/
import proofs.«431134_j2121713844698_1_alg».proof.Proof.KernelFinal
import proofs.«431134_j2121713844698_1_alg».proof.Proof.KernelHost

noncomputable section

namespace Cert.KernelIdeal.Sum

open Cert.KernelIdeal Cert.KernelIdeal.Gen
open Idealize.ShloMosaic Idealize.ShloMosaic.TcCoe Idealize.ShloMosaic.ValueIdx Idealize.SL.Sem

/-- Row by column: `x` against the dense matrix of the two index arrays. -/
def product (x : FVec Ideal S1024x8192 .f32) (p q : IVec S131072 32) : FVec Ideal S1024x8192 .f32 :=
  fun i => ∑ k : Fin 8192, x (ix2 (i 0) k) * Term.dense (F := Ideal) p q (ix2 k (i 1))

variable (m : (ℓ : Loc nD τ sig) → Buf (Elt Ideal) ℓ) (ρ : Dev nD → PrngReg)

/-- The result as a function of the three arguments' launch contents. -/
abbrev result (c : Dev nD) : Buf (Elt Ideal) ((c : Thread nD τ).loc main_v17) :=
  product (m ((c : Thread nD τ).loc main_arg0)) (m ((c : Thread nD τ).loc main_arg1)) (m ((c : Thread nD τ).loc main_arg2))

theorem G_eq (c : Dev nD) : G m c = result m c := by
  have e1 : xarr m c = m ((c : Thread nD τ).loc main_arg0) := V_main_arg0 m c
  have e2 : warr m c = Term.dense (F := Ideal) (m ((c : Thread nD τ).loc main_arg1)) (m ((c : Thread nD τ).loc main_arg2)) :=
    V_dense (F := Ideal) m c
  show Gfun m c = product _ _ _
  unfold Gfun product
  rw [e1, e2]

/-- The kernel's run: the result array at `result`, the arguments unchanged. -/
theorem run_result : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (G_eq m c), (h c).2⟩) (run m ρ)

end Cert.KernelIdeal.Sum

end
-- ==== Proof.RefTerm.lean ====
/-
  The reference's result as ONE pure term of its three arguments, cut where its mathematics has joints:
  `wrap` (a negative index counted from the end), `col` (the index column the gather reads), `inRange` (the take's range
  test), `taken` (the columns of `x` the indices name, a NaN where the test fails), `out` (the hundredfold of those columns
  added into the segments the second index array names, laid back as [batch, segment]).
-/
import proofs.«431134_j2121713844698_1_alg».proof.ReferenceIdeal

noncomputable section

namespace Cert.ReferenceIdeal.Term

open Idealize.ShloMosaic Cert.ReferenceIdeal Cert.ReferenceIdeal.Facts₀

variable {F : FTy → Type} [FloatOps F] [Cert.ReferenceIdeal.Facts]

/-- `where(p < 0, p + 8192, p)`: a negative index counts from the end of the 8192 columns. -/
def wrap (p : IVec S131072 32) : IVec S131072 32 :=
  select (cmpi .slt p (broadcastInDim S131072 ![] bcast_S_S131072 (constantI S_ 32 0#32)))
    (addi p (broadcastInDim S131072 ![] bcast_S_S131072 (constantI S_ 32 8192#32))) p

/-- The wrapped indices as the [131072, 1] column the gather reads its start indices from. -/
def col (p : IVec S131072 32) : IVec S131072x1 32 :=
  broadcastInDim S131072x1 ![0] bcast_S131072_S131072x1_0 (wrap p)

/-- The take's range test, per index: `0 ≤ index ≤ 8191`. -/
def inRange (p : IVec S131072 32) : IVec S131072 1 :=
  Host.reduce IntOp.andi
    (andi (cmpi .sge (col p) (broadcastInDim S131072x1 ![] bcast_S_S131072x1 (constantI S_ 32 0#32)))
      (cmpi .sle (col p) (broadcastInDim S131072x1 ![0, 1] bcast_S1x1_S131072x1_0_1
        (broadcastInDim S1x1 ![1] bcast_S1_S1x1_1 (constantI S1 32 8191#32)))))
    (constantI S_ 1 1#1) reducesTo_S131072x1_S131072_d1 h_S_

/-- `take(x, p, axis=1)`: column `e` is column `p e` of `x` where the range test passes, a NaN where it fails. -/
def taken (x : FVec F S1024x8192 .f32) (p : IVec S131072 32) : FVec F S1024x131072 .f32 :=
  select (broadcastInDim S1024x131072 ![1] bcast_S131072_S1024x131072_1 (inRange p))
    (Host.gather gather_S1024x8192_S131072x1_S1024x131072_0_1_n_n_1_1_10241 x (col p))
    (broadcastInDim S1024x131072 ![] bcast_S_S1024x131072 (constant S_ .f32 0x7FC00000#32))

/-- The reference's result: `segment_sum((100 · take(x, p)).T, q, 8192).T`. -/
def out (x : FVec F S1024x8192 .f32) (p q : IVec S131072 32) : FVec F S1024x8192 .f32 :=
  transpose S1024x8192 [1, 0]
    (Host.scatterAdd scatter_S8192x1024_S131072x1_S131072x1024_1_0_0_1
      (broadcastInDim S8192x1024 ![] bcast_S_S8192x1024 (constant S_ .f32 0x00000000#32))
      (broadcastInDim S131072x1 ![0] bcast_S131072_S131072x1_0 q)
      (transpose S131072x1024 [1, 0]
        (mulf (broadcastInDim S1024x131072 ![] bcast_S_S1024x131072 (constant S_ .f32 0x42C80000#32)) (taken x p))
        transposes_S1024x131072_S131072x1024_1_0))
    transposes_S8192x1024_S1024x8192_1_0

end Cert.ReferenceIdeal.Term

end
-- ==== Proof.RefRun.lean ====
/-
  The reference's run.

  The reference computes, on the host, the hundredfold of the columns of x that the first index array names, summed
  into the segments the second index array names. Its entry function calls the column-take, which in turn calls the
  three-way choice that counts a negative index from the end; a call means its callee's body on the caller's buffers,
  so with both calls opened the entry function is ONE straight line of thirty-two tensor operations, each writing a
  buffer of its own: twenty-three for the take (seven that wrap the index, nine that test 0 ≤ index ≤ 8191, the
  gather, and the four that put a NaN where the test fails), then nine for the scaling by one hundred, the two
  transposes and the sum into segments.

  A straight line of such operations terminates on every fair schedule, and leaves each buffer at the fold of the
  operations over what the buffers held at launch. What this module adds is the reading of that fold at four buffers:
  at the result buffer it is the closed term Term.out of the three arguments' launch contents (each operation's
  result substituted into its consumers, innermost first), and at each argument buffer it is the launch contents,
  since no operation writes an argument.
-/
import proofs.«431134_j2121713844698_1_alg».proof.Proof.Gen.ReferenceIdeal
import proofs.«431134_j2121713844698_1_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe
  Idealize.ShloMosaic.StableHlo Idealize.SL.Sem

variable {F : FTy → Type} [FloatOps F]

/-- The entry function's thirty-two operations in order, the two calls opened at their sites: the take's body over
    the buffers of its call, the index choice's single operation over the buffers of the call nested in it, then the
    entry function's own nine. -/
abbrev ops : List (HloOp τ sig (Elt F)) :=
  [ -- the index, a negative one counted from the end: where(p < 0, p + 8192, p)
    TRef.nullary main_call0.c (constantI S_ 32 0#32),
    TRef.unary main_call0.c main_call0.v0 (broadcastInDim S131072 ![] bcast_S_S131072),
    TRef.binary (.of main_arg1) main_call0.v0 main_call0.v1 (cmpi .slt),
    TRef.nullary main_call0.c_0 (constantI S_ 32 8192#32),
    TRef.unary main_call0.c_0 main_call0.v2 (broadcastInDim S131072 ![] bcast_S_S131072),
    TRef.binary (.of main_arg1) main_call0.v2 main_call0.v3 addi,
    TRef.ternary main_call0.v1 main_call0.v3 (.of main_arg1) main_call0.call0.v0 select,
    -- the index column, and the range test 0 ≤ index ≤ 8191 on it
    TRef.unary main_call0.call0.v0 main_call0.v5 (broadcastInDim S131072x1 ![0] bcast_S131072_S131072x1_0),
    TRef.nullary main_call0.c_1 (constantI S1 32 8191#32),
    TRef.nullary main_call0.c_2 (constantI S_ 32 0#32),
    TRef.unary main_call0.c_2 main_call0.v6 (broadcastInDim S131072x1 ![] bcast_S_S131072x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S131072x1 ![0, 1] bcast_S1x1_S131072x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S131072x1_S131072_d1 h_S_),
    -- the columns read, a NaN where the test fails
    TRef.binary (.of main_arg0) main_call0.v5 main_call0.v13
      (fun x i => Host.gather gather_S1024x8192_S131072x1_S1024x131072_0_1_n_n_1_1_10241 x i),
    TRef.unary main_call0.v12 main_call0.v14 (broadcastInDim S1024x131072 ![1] bcast_S131072_S1024x131072_1),
    TRef.nullary main_call0.cst (constant S_ .f32 0x7FC00000#32),
    TRef.unary main_call0.cst main_call0.v15 (broadcastInDim S1024x131072 ![] bcast_S_S1024x131072),
    TRef.ternary main_call0.v14 main_call0.v13 main_call0.v15 main_call0.v16 select,
    -- the hundredfold, transposed to one row per index
    nullary main_cst (constant S_ .f32 0x42C80000#32),
    unary main_cst main_v1 (broadcastInDim S1024x131072 ![] bcast_S_S1024x131072 : (⟨S_, .f32⟩ : BufTy).Contents (Elt F) → (⟨S1024x131072, .f32⟩ : BufTy).Contents (Elt F)),
    binary main_v1 main_v0 main_v2 (mulf : (⟨S1024x131072, .f32⟩ : BufTy).Contents (Elt F) → (⟨S1024x131072, .f32⟩ : BufTy).Contents (Elt F) → (⟨S1024x131072, .f32⟩ : BufTy).Contents (Elt F)),
    unary main_v2 main_v3 ((transpose S131072x1024 [1, 0] · transposes_S1024x131072_S131072x1024_1_0) : (⟨S1024x131072, .f32⟩ : BufTy).Contents (Elt F) → (⟨S131072x1024, .f32⟩ : BufTy).Contents (Elt F)),
    -- the rows summed into the segments the second index array names, from zero, and laid back as [batch, segment]
    nullary main_cst_0 (constant S_ .f32 0x00000000#32),
    unary main_cst_0 main_v4 (broadcastInDim S8192x1024 ![] bcast_S_S8192x1024 : (⟨S_, .f32⟩ : BufTy).Contents (Elt F) → (⟨S8192x1024, .f32⟩ : BufTy).Contents (Elt F)),
    unary main_arg2 main_v5 (broadcastInDim S131072x1 ![0] bcast_S131072_S131072x1_0 : (⟨S131072, .i32⟩ : BufTy).Contents (Elt F) → (⟨S131072x1, .i32⟩ : BufTy).Contents (Elt F)),
    ternary main_v4 main_v5 main_v3 main_v6 ((fun x i u => Host.scatterAdd scatter_S8192x1024_S131072x1_S131072x1024_1_0_0_1 x i u) : (⟨S8192x1024, .f32⟩ : BufTy).Contents (Elt F) → (⟨S131072x1, .i32⟩ : BufTy).Contents (Elt F) → (⟨S131072x1024, .f32⟩ : BufTy).Contents (Elt F) → (⟨S8192x1024, .f32⟩ : BufTy).Contents (Elt F)),
    unary main_v6 main_v7 ((transpose S1024x8192 [1, 0] · transposes_S8192x1024_S1024x8192_1_0) : (⟨S8192x1024, .f32⟩ : BufTy).Contents (Elt F) → (⟨S1024x8192, .f32⟩ : BufTy).Contents (Elt F)) ]

/-- The entry function is that straight line: with the two callees' bodies in place of their calls, and the
    sequencing re-associated to the right, both sides are the same chain of steps. -/
theorem main_eq (c : Dev nD) : main (F := F) c = seq ops := by
  simp only [main, fn_take.body, fn_where.body, seq, bind_assoc, pure_bind]

/-- The fold at the result buffer is the closed term of the three arguments: each operation's value substituted
    at the one buffer it writes, every other buffer passed through, and what remains is Term.out with its four
    layers (the wrapped index, its column, the range test, the columns taken) written out. The callees' operations
    are stated at their values' types and moved to their buffers' types and back; a move there and back composes to
    a move between one type and itself, and at these buffers the two types are the same, so every move is the
    identity. -/
theorem out_eq (V : Valuation τ sig (Elt F)) :
    after ops V (main_v7 : DevRef τ sig)
      = Term.out (V (main_arg0 : DevRef τ sig)) (V (main_arg1 : DevRef τ sig)) (V (main_arg2 : DevRef τ sig)) := by
  after_results_simp
  unfold Term.out Term.taken Term.inRange Term.col Term.wrap
  simp only [cast_cast, cast_eq]

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- No operation writes the third argument. -/
theorem arg2_eq (V : Valuation τ sig (Elt F)) :
    after ops V (main_arg2 : DevRef τ sig) = V (main_arg2 : DevRef τ sig) := by
  after_results_simp

/-- No buffer of the signature is scoped to a region. -/
theorem scopedRefs_eq : (Finset.univ.filter fun b : Ref sig .tc => b.isScoped) = ∅ := by decide
/-- The signature has no semaphore, hence no scoped one. -/
theorem scopedSems_eq : (Finset.univ.filter fun sm : SemLoc sig => sm.isScoped .tc) = ∅ := by decide

/-- Every operation touches buffers of the device's tensor values only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., unary_bufs_sub ..,
    nullary_bufs_sub .., unary_bufs_sub .., unary_bufs_sub .., ternary_bufs_sub .., unary_bufs_sub ..⟩

/-- On the one device, for any float values, from any memory with zero counters: every weakly fair execution of the
    reference terminates with the result buffer at Term.out of the three arguments' launch contents, and the three
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v7) = Term.out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c main_v7).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.PreRange.lean ====
/-
  THE PRECONDITION READ BACK AS INDEX RANGES.

  The precondition of the claim is a conjunction of three "for all" statements, each printed as a reduction by
  `and` of an array of one-bit words down to a single bit: every entry of x is finite; every entry of the first
  index table lies in [0, 8192); every entry of the second index table lies in [0, 8192). The claim's hypothesis
  says that the resulting bit is 1.

  A conjunction of bits is 1 exactly when both bits are 1, so the hypothesis gives each of the three reductions
  the value 1. A reduction by `and` over a whole array that comes out 1 met a 1 at every entry, so at each edge e
  the bit  (tbl[e] ≥ 0) and (tbl[e] < 8192)  is 1, both comparisons being signed comparisons of 32-bit words
  against a constant spread over the array. Read as integers, the two comparisons say 0 ≤ tbl[e] and tbl[e] < 8192,
  the constants 0 and 8192 being their own signed values.

  Everything is read at one symbolic edge e; no entry of a table is ever enumerated. The finiteness of x is the
  third conjunct and is not used here.
-/
import proofs.«431134_j2121713844698_1_alg».proof.Pre_finite_inputs
import Idealize.ShloMosaic.Lib.ReduceAll
import Idealize.ShloMosaic.Lib.ValueIdx

noncomputable section

namespace Cert.PreRange

open Idealize.ShloMosaic
open Cert.Pre_finite_inputs

/-- The shape of a single bit has exactly one index: it has no coordinates to differ in. -/
instance scalarIdx_subsingleton : Subsingleton S_.Idx := ⟨fun a b => funext fun d => d.elim0⟩

/-- The 32-bit word 0 reads as the integer 0. -/
theorem toInt_zero : (0#32 : BitVec 32).toInt = 0 := by decide

/-- The 32-bit word 8192 is below 2³¹, so it reads as the integer 8192. -/
theorem toInt_8192 : (8192#32 : BitVec 32).toInt = 8192 := by decide

/-- ONE WORD. If the bit (w ≥ 0) and (w < 8192), both compared signed, is 1, then w read as an integer lies in
    [0, 8192). -/
theorem word_range (w : BitVec 32)
    (h : IntOp.andi (IntOp.cmpi .sge w 0#32) (IntOp.cmpi .slt w 8192#32) = 1#1) :
    0 ≤ w.toInt ∧ w.toInt < 8192 := by
  obtain ⟨hge, hlt⟩ := IntOp.andi_eq_one.1 h
  have h0 : (0#32 : BitVec 32).toInt ≤ w.toInt := IntOp.cmpi_sge.1 hge
  have h1 : w.toInt < (8192#32 : BitVec 32).toInt := IntOp.cmpi_slt.1 hlt
  rw [toInt_zero] at h0
  rw [toInt_8192] at h1
  exact ⟨h0, h1⟩

section
variable [Facts]
open Facts

/-- The array of bits the precondition reduces for one index table: at each edge, (tbl[e] ≥ 0) and
    (tbl[e] < 8192), the two bounds being scalars spread over the table's shape. -/
def inRangeBits (tbl : IVec S131072 32) : IVec S131072 1 :=
  andi (cmpi .sge tbl (broadcastInDim S131072 ![] bcast_S_S131072 (constantI S_ 32 0#32)))
    (cmpi .slt tbl (broadcastInDim S131072 ![] bcast_S_S131072 (constantI S_ 32 8192#32)))

/-- At one edge the bit array is the one-word bit of `word_range`: a spread scalar reads the scalar everywhere. -/
theorem inRangeBits_apply (tbl : IVec S131072 32) (e : S131072.Idx) :
    inRangeBits tbl e = IntOp.andi (IntOp.cmpi .sge (tbl e) 0#32) (IntOp.cmpi .slt (tbl e) 8192#32) := rfl

/-- ONE TABLE. If the reduction by `and` of a table's bit array, from any initial bit, is 1, then every entry of
    the table lies in [0, 8192). -/
theorem table_range (tbl : IVec S131072 32) (init : IVec S_ 1)
    (h : Host.reduce IntOp.andi (inRangeBits tbl) init reducesTo_S131072_S_d0 h_S_ ValueIdx.ix0 = 1#1)
    (e : S131072.Idx) : 0 ≤ (tbl e).toInt ∧ (tbl e).toInt < 8192 := by
  have hbit : inRangeBits tbl e = 1#1 :=
    Host.reduce_andi_all (inRangeBits tbl) init reducesTo_S131072_S_d0 h_S_ ValueIdx.ix0 h e
  rw [inRangeBits_apply] at hbit
  exact word_range (tbl e) hbit

end

/-- THE PRECONDITION DECODED. If the printed precondition is 1 on (x, p, q), then every entry of p and every
    entry of q, read as a signed integer, lies in [0, 8192). -/
theorem range_of_pre {F : FTy → Type} [FloatOps F] [Cert.Pre_finite_inputs.Facts]
    (x : FVec F S1024x8192 .f32) (p q : IVec S131072 32)
    (h : fn (F := F) x p q = fun _ => 1#1) :
    (∀ e : S131072.Idx, 0 ≤ (p e).toInt ∧ (p e).toInt < 8192)
    ∧ (∀ e : S131072.Idx, 0 ≤ (q e).toInt ∧ (q e).toInt < 8192) := by
  have h0 : fn (F := F) x p q ValueIdx.ix0 = 1#1 := congrFun h ValueIdx.ix0
  -- the printed chain, unfolded: (finite(x) and all(bits p)) and all(bits q), read at the one index
  dsimp only [fn, fn_part1] at h0
  obtain ⟨hxp, hq⟩ := IntOp.andi_eq_one.1 h0
  obtain ⟨-, hp⟩ := IntOp.andi_eq_one.1 hxp
  exact ⟨table_range p _ hp, table_range q _ hq⟩

end Cert.PreRange

end
-- ==== Proof.LibScatterConst.lean ====
/-
  A scatter whose body keeps the update (a "set") and whose updates all carry one constant, read at an index; and when an
  update index lands on a given operand index.

  The scatter is a left fold over the update indices; each step overwrites the element its update lands on, when it
  lands inside the operand. With a constant update the order of the steps and repeated landings do not matter: the result at
  an index is the constant when some update lands there, and the operand's element otherwise.
-/
import Idealize.ShloMosaic.PureOps.ShapeOps

namespace Cert.LibScatterConst

open Idealize.ShloMosaic

/-- A left fold whose step, where `g n = some i`, sets the element at `i` to the constant `c` and keeps every other element,
    and where `g n = none` keeps the function: read at `i'`, it is `c` when some member of the list lands on `i'`, else
    the starting function's element. By induction over the list, for every starting function. -/
theorem foldl_set_const_apply {ι κ α : Type} (g : κ → Option ι) (c : α) (step : (ι → α) → κ → ι → α)
    (hsome : ∀ r n i, g n = some i → step r n i = c ∧ ∀ i', i' ≠ i → step r n i' = r i')
    (hnone : ∀ r n, g n = none → step r n = r) (i' : ι) :
    ∀ (L : List κ) (r : ι → α),
      ((∃ n ∈ L, g n = some i') → L.foldl step r i' = c) ∧ ((¬ ∃ n ∈ L, g n = some i') → L.foldl step r i' = r i') := by
  intro L
  induction L with
  | nil =>
    intro r
    exact ⟨fun ⟨n, hn, _⟩ => absurd hn List.not_mem_nil, fun _ => rfl⟩
  | cons a L ih =>
    intro r
    rw [List.foldl_cons]
    obtain ⟨ih1, ih2⟩ := ih (step r a)
    constructor
    · rintro ⟨n, hn, h⟩
      by_cases hL : ∃ n ∈ L, g n = some i'
      · exact ih1 hL
      · rw [ih2 hL]
        rcases List.mem_cons.1 hn with rfl | hn
        · exact (hsome r n i' h).1
        · exact absurd ⟨n, hn, h⟩ hL
    · intro hno
      have hL : ¬ ∃ n ∈ L, g n = some i' := fun ⟨n, hn, h⟩ => hno ⟨n, List.mem_cons_of_mem _ hn, h⟩
      rw [ih2 hL]
      cases hg : g a with
      | none => rw [hnone r a hg]
      | some i =>
        have hi : i' ≠ i := fun e => hno ⟨a, List.mem_cons_self, by rw [hg, e]⟩
        exact (hsome r a i hg).2 i' hi

/-- A scatter that sets (its body returns the update) with every update equal to `c`, read at `i'`: `c` when some update index
    lands on `i'`, else the operand's element there. -/
theorem scatter_set_const_apply {s si u : Shape} {α : Type} {w : Nat} (d : ScatterDims s si u) (x : s.Idx → α)
    (idx : IVec si w) (upd : u.Idx → α) (c : α) (hupd : ∀ j, upd j = c) (i' : s.Idx)
    [Decidable (∃ j : u.Idx, d.resultIdx? j idx = some i')] :
    Host.scatter d (fun _ v => v) x idx upd i' = if ∃ j : u.Idx, d.resultIdx? j idx = some i' then c else x i' := by
  obtain rfl : upd = fun _ => c := funext hupd
  unfold Host.scatter
  have key := foldl_set_const_apply (fun n => d.resultIdx? (u.rowMajor.symm n) idx) c
    (fun r n => match d.resultIdx? (u.rowMajor.symm n) idx with
      | some i => fun i' => if i' = i then (fun _ v => v) (r i) ((fun _ => c) (u.rowMajor.symm n)) else r i'
      | none => r)
    (fun r n i h => by
      refine ⟨?_, fun i' hi => ?_⟩
      · simp only [h]; exact if_pos trivial
      · simp only [h]; exact if_neg hi)
    (fun r n h => by simp only [h]) i' (List.finRange u.numel) x
  have hiff : (∃ n ∈ List.finRange u.numel, d.resultIdx? (u.rowMajor.symm n) idx = some i') ↔
      ∃ j : u.Idx, d.resultIdx? j idx = some i' := by
    constructor
    · rintro ⟨n, _, h⟩; exact ⟨_, h⟩
    · rintro ⟨j, h⟩
      exact ⟨u.rowMajor j, List.mem_finRange _, by rw [Equiv.symm_apply_apply]; exact h⟩
  by_cases h : ∃ j : u.Idx, d.resultIdx? j idx = some i'
  · rw [if_pos h]; exact key.1 (hiff.2 h)
  · rw [if_neg h]; exact key.2 (fun h' => h (hiff.1 h'))

/-- An update index lands on the operand index `i'` exactly when, on every axis, its start plus its window coordinate is
    `i'`'s coordinate. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    constructor
    · intro e a
      have e1 : ((d.start j idx a + (d.window j a : Int)).toNat) = (i' a).val :=
        congrArg Fin.val (congrFun (Option.some.inj e) a)
      have ha := h a
      omega
    · intro e
      refine congrArg some (funext fun a => Fin.ext ?_)
      have ea := e a
      have ha := h a
      show (d.start j idx a + (d.window j a : Int)).toNat = (i' a).val
      omega
  · rename_i h
    constructor
    · intro e; exact absurd e (by simp)
    · intro e
      refine absurd (fun a => ?_) h
      have ea := e a
      have hlt := (i' a).isLt
      omega

end Cert.LibScatterConst
-- ==== Proof.ScatterRead.lean ====
/-
  The two accumulating scatters of this certificate, read at one index of their result, over the extended reals and
  over abstract operands.

  An accumulating scatter adds to each element of its operand the updates that LAND on it: update index `q` lands on
  the operand index whose coordinate on every axis is the start of `q`'s window (a component of the index vector
  `q` reads off the scatter indices, taken as a signed integer; `0` on an axis no component names) plus `q`'s window
  coordinate (its own coordinate on the window axis going to that operand axis; `0` on an inserted axis), when that
  point is inside the operand. Over the extended reals the colliding updates are summed exactly, so the result at an
  index is the operand's element plus the sum of the updates landing there.

  For each of the two scatters the start and the window coordinate are computed on each of the two operand axes
  from the literal dimension numbers; that turns "lands on" into equations between the update's index vector and the
  operand index; and the set of landing update indices is identified with a set of update NUMBERS `e`: the update
  index is `e` itself for the first scatter and `(e, b)` for the second, `b` the column read.

  * The pair scatter: operand `[8192, 8192]`, one scalar update per index pair `(idx[e, 0], idx[e, 1])`. Read at
    `(k, j)`: the operand's element plus the sum of `upd[e]` over the `e` whose pair is `(k, j)`.
  * The row scatter: operand `[8192, 1024]`, one row of `1024` updates per row number `idx[e, 0]`. Read at
    `(j, b)`: the operand's element plus the sum of `upd[e, b]` over the `e` whose row number is `j`.

  No range condition on the scatter indices is needed: an update whose window leaves the operand lands nowhere, and
  then its index vector equals no operand index either.
-/
import Idealize.ShloMosaic.Lib.ValueIdx
import proofs.«431134_j2121713844698_1_alg».proof.KernelIdeal
import proofs.«431134_j2121713844698_1_alg».proof.ReferenceIdeal
import proofs.«431134_j2121713844698_1_alg».proof.Proof.LibScatterConst

open scoped BigOperators

namespace Cert.ScatterRead

open Idealize.ShloMosaic Idealize.ShloMosaic.ValueIdx
open Cert.KernelIdeal (scatter_S8192x8192_S131072x2_S131072_n_01_01_1)
open Cert.ReferenceIdeal (scatter_S8192x1024_S131072x1_S131072x1024_1_0_0_1)

/-! ## The accumulating scatter at the exact instance, for any dimension numbers -/

/-- Over the extended reals an accumulating scatter read at the operand index `i` is the operand's element there
    plus the sum of the updates that land on `i` (whichever procedure decides the landing condition: the sum runs
    over the same set of update indices). -/
theorem scatterAdd_apply {s si u : Shape} {w : Nat} {φ : FTy} (d : ScatterDims s si u) (x : FVec Ideal s φ)
    (idx : IVec si w) (upd : FVec Ideal u φ) (i : s.Idx) [DecidablePred fun q : u.Idx => d.resultIdx? q idx = some i] :
    Host.scatterAdd (F := Ideal) d x idx upd i
      = x i + ∑ q ∈ Finset.univ.filter (fun q : u.Idx => d.resultIdx? q idx = some i), upd q := by
  unfold Host.scatterAdd
  rw [Ideal.hostScatterAdd_def]
  unfold Ideal.hostScatterAdd
  refine congrArg (fun t => x i + t) ?_
  refine Finset.sum_congr ?_ (fun _ _ => rfl)
  ext q
  simp only [Finset.mem_filter, Finset.mem_univ, true_and]

/-! ## The pair scatter: every axis of the operand inserted, the index vector a pair (row, column)

Operand `[8192, 8192]`, scatter indices `[131072, 2]`, updates `[131072]`. No update axis is a window axis, both
operand axes are inserted, and component `c` of the index vector goes to operand axis `c`. So update `e` has
window coordinate `0` on both axes and start `idx[e, c]` on axis `c`: it lands on `(k, j)` exactly when
`idx[e, 0] = k` and `idx[e, 1] = j`. -/

section Pair
variable [Cert.KernelIdeal.Facts]

/-- No operand axis is kept (both are inserted), so the window coordinate is `0` on each axis. -/
theorem pair_window (q : Cert.KernelIdeal.S131072.Idx) (a : Fin 2) :
    scatter_S8192x8192_S131072x2_S131072_n_01_01_1.window q a = 0 := by
  unfold ScatterDims.window
  exact dif_neg (by
    show ¬ a ∈ Shape.kept Cert.KernelIdeal.S8192x8192 [0, 1]
    revert a; decide)

/-- Update `e` reads component `c` of its start index at the scatter-indices index `(e, c)`: on the one axis that is
    not the index vector's the coordinate is the update's own, on the index vector's axis it is `c`. -/
theorem pair_siIdx (e : Fin 131072) (c : Fin 2)
    (hc : c.val < scatter_S8192x8192_S131072x2_S131072_n_01_01_1.scatterDimsToOperandDims.length) :
    scatter_S8192x8192_S131072x2_S131072_n_01_01_1.siIdx (ix1 e) ⟨c.val, hc⟩ = ix2 e c := by
  funext b
  refine Fin.ext ?_
  match b with
  | ⟨0, _⟩ => rfl
  | ⟨1, _⟩ => rfl

/-- On operand axis `0` the window of update `e` starts at `idx[e, 0]`, read signed. -/
theorem pair_start_zero (e : Fin 131072) (idx : IVec Cert.KernelIdeal.S131072x2 32) :
    scatter_S8192x8192_S131072x2_S131072_n_01_01_1.start (ix1 e) idx (⟨0, by decide⟩ : Fin 2)
      = (idx (ix2 e (0 : Fin 2))).toInt := by
  unfold ScatterDims.start
  rw [dif_pos (show (⟨0, by decide⟩ : Fin 2) ∈ scatter_S8192x8192_S131072x2_S131072_n_01_01_1.scatterDimsToOperandDims from by
    show (⟨0, by decide⟩ : Fin 2) ∈ ([0, 1] : List (Fin 2)); decide)]
  exact congrArg (fun t => (idx t).toInt) (pair_siIdx e (0 : Fin 2) _)

/-- On operand axis `1` the window of update `e` starts at `idx[e, 1]`, read signed. -/
theorem pair_start_one (e : Fin 131072) (idx : IVec Cert.KernelIdeal.S131072x2 32) :
    scatter_S8192x8192_S131072x2_S131072_n_01_01_1.start (ix1 e) idx (⟨1, by decide⟩ : Fin 2)
      = (idx (ix2 e (1 : Fin 2))).toInt := by
  unfold ScatterDims.start
  rw [dif_pos (show (⟨1, by decide⟩ : Fin 2) ∈ scatter_S8192x8192_S131072x2_S131072_n_01_01_1.scatterDimsToOperandDims from by
    show (⟨1, by decide⟩ : Fin 2) ∈ ([0, 1] : List (Fin 2)); decide)]
  exact congrArg (fun t => (idx t).toInt) (pair_siIdx e (1 : Fin 2) _)

/-- Update `e` lands on `(k, j)` exactly when its index pair is `(k, j)`. -/
theorem pair_lands (idx : IVec Cert.KernelIdeal.S131072x2 32) (e : Fin 131072) (k j : Fin 8192) :
    scatter_S8192x8192_S131072x2_S131072_n_01_01_1.resultIdx? (ix1 e) idx = some (ix2 k j) ↔
      (idx (ix2 e (0 : Fin 2))).toInt = (k.val : ℤ) ∧ (idx (ix2 e (1 : Fin 2))).toInt = (j.val : ℤ) := by
  rw [Cert.LibScatterConst.resultIdx?_eq_some_iff]
  constructor
  · intro h
    have h0 := h ⟨0, by decide⟩
    have h1 := h ⟨1, by decide⟩
    rw [pair_start_zero, pair_window] at h0
    rw [pair_start_one, pair_window] at h1
    have h0' : (idx (ix2 e (0 : Fin 2))).toInt + ((0 : ℕ) : ℤ) = ((k.val : ℕ) : ℤ) := h0
    have h1' : (idx (ix2 e (1 : Fin 2))).toInt + ((0 : ℕ) : ℤ) = ((j.val : ℕ) : ℤ) := h1
    constructor <;> omega
  · rintro ⟨h0, h1⟩ (a : Fin 2)
    match a with
    | ⟨0, _⟩ =>
      rw [pair_start_zero, pair_window]
      show (idx (ix2 e (0 : Fin 2))).toInt + ((0 : ℕ) : ℤ) = ((k.val : ℕ) : ℤ)
      omega
    | ⟨1, _⟩ =>
      rw [pair_start_one, pair_window]
      show (idx (ix2 e (1 : Fin 2))).toInt + ((0 : ℕ) : ℤ) = ((j.val : ℕ) : ℤ)
      omega

/-- THE PAIR SCATTER READ AT `(k, j)`: the operand's element plus the sum of the updates whose index pair is
    `(k, j)`. The updates' indices are the `ix1 e`, and `e ↦ ix1 e` carries the set of `e` with that pair onto
    the set of update indices landing on `(k, j)`. -/
theorem pair_scatter_apply (x : FVec Ideal Cert.KernelIdeal.S8192x8192 .f32) (idx : IVec Cert.KernelIdeal.S131072x2 32)
    (upd : FVec Ideal Cert.KernelIdeal.S131072 .f32) (k j : Fin 8192) :
    Host.scatterAdd (F := Ideal) scatter_S8192x8192_S131072x2_S131072_n_01_01_1 x idx upd (ix2 k j)
      = x (ix2 k j) + ∑ e ∈ Finset.univ.filter (fun e : Fin 131072 =>
          (idx (ix2 e (0 : Fin 2))).toInt = (k.val : ℤ) ∧ (idx (ix2 e (1 : Fin 2))).toInt = (j.val : ℤ)), upd (ix1 e) := by
  rw [scatterAdd_apply]
  refine congrArg (fun t => x (ix2 k j) + t) ?_
  symm
  refine Finset.sum_bij (fun e _ => ix1 e) ?_ ?_ ?_ ?_
  · intro e he
    rw [Finset.mem_filter] at he
    exact Finset.mem_filter.2 ⟨Finset.mem_univ _, (pair_lands idx e k j).2 he.2⟩
  · intro e₁ _ e₂ _ h
    exact congrFun h ⟨0, by decide⟩
  · intro q hq
    obtain ⟨e, rfl⟩ : ∃ e : Fin 131072, q = ix1 e := ⟨q 0, eq_ix1 q⟩
    rw [Finset.mem_filter] at hq
    exact ⟨e, Finset.mem_filter.2 ⟨Finset.mem_univ _, (pair_lands idx e k j).1 hq.2⟩, rfl⟩
  · intro e _
    rfl

end Pair

/-! ## The row scatter: the index vector one row number, the update a whole row

Operand `[8192, 1024]`, scatter indices `[131072, 1]`, updates `[131072, 1024]`. The updates' axis `1` is the
window axis and goes to the operand's axis `1` (the kept one); the operand's axis `0` is inserted and takes the one
component of the index vector. So update `(e, b')` has start `idx[e, 0]` and window coordinate `0` on axis `0`,
start `0` and window coordinate `b'` on axis `1`: it lands on `(j, b)` exactly when `idx[e, 0] = j` and
`b' = b`. -/

section Row
variable [Cert.ReferenceIdeal.Facts]

/-- The operand's axis `0` is inserted: the window coordinate there is `0`. -/
theorem row_window_zero (q : Cert.ReferenceIdeal.S131072x1024.Idx) :
    scatter_S8192x1024_S131072x1_S131072x1024_1_0_0_1.window q (⟨0, by decide⟩ : Fin 2) = 0 := by
  unfold ScatterDims.window
  exact dif_neg (by
    show ¬ (⟨0, by decide⟩ : Fin 2) ∈ Shape.kept Cert.ReferenceIdeal.S8192x1024 [0]
    decide)

/-- The operand's axis `1` is its one kept axis and takes the updates' one window axis, axis `1`: the window
    coordinate of update `(e, b')` there is `b'`. -/
theorem row_window_one (e : Fin 131072) (b' : Fin 1024) :
    scatter_S8192x1024_S131072x1_S131072x1024_1_0_0_1.window (ix2 e b') (⟨1, by decide⟩ : Fin 2) = b'.val := by
  unfold ScatterDims.window
  rw [dif_pos (show (⟨1, by decide⟩ : Fin 2) ∈ scatter_S8192x1024_S131072x1_S131072x1024_1_0_0_1.sKept from by
    show (⟨1, by decide⟩ : Fin 2) ∈ Shape.kept Cert.ReferenceIdeal.S8192x1024 [0]; decide)]
  rfl

/-- Update `(e, b')` reads the one component of its start index at the scatter-indices index `(e, 0)`. -/
theorem row_siIdx (e : Fin 131072) (b' : Fin 1024)
    (hc : 0 < scatter_S8192x1024_S131072x1_S131072x1024_1_0_0_1.scatterDimsToOperandDims.length) :
    scatter_S8192x1024_S131072x1_S131072x1024_1_0_0_1.siIdx (ix2 e b') ⟨0, hc⟩ = ix2 e (0 : Fin 1) := by
  funext c
  refine Fin.ext ?_
  match c with
  | ⟨0, _⟩ => rfl
  | ⟨1, _⟩ => rfl

/-- On operand axis `0` the window of update `(e, b')` starts at `idx[e, 0]`, read signed. -/
theorem row_start_zero (e : Fin 131072) (b' : Fin 1024) (idx : IVec Cert.ReferenceIdeal.S131072x1 32) :
    scatter_S8192x1024_S131072x1_S131072x1024_1_0_0_1.start (ix2 e b') idx (⟨0, by decide⟩ : Fin 2)
      = (idx (ix2 e (0 : Fin 1))).toInt := by
  unfold ScatterDims.start
  rw [dif_pos (show (⟨0, by decide⟩ : Fin 2) ∈ scatter_S8192x1024_S131072x1_S131072x1024_1_0_0_1.scatterDimsToOperandDims from by
    show (⟨0, by decide⟩ : Fin 2) ∈ ([0] : List (Fin 2)); decide)]
  exact congrArg (fun t => (idx t).toInt) (row_siIdx e b' _)

/-- Operand axis `1` is named by no component of the index vector: the window starts at `0` there. -/
theorem row_start_one (q : Cert.ReferenceIdeal.S131072x1024.Idx) (idx : IVec Cert.ReferenceIdeal.S131072x1 32) :
    scatter_S8192x1024_S131072x1_S131072x1024_1_0_0_1.start q idx (⟨1, by decide⟩ : Fin 2) = 0 := by
  unfold ScatterDims.start
  exact dif_neg (by
    show ¬ (⟨1, by decide⟩ : Fin 2) ∈ ([0] : List (Fin 2))
    decide)

/-- Update `(e, b')` lands on `(j, b)` exactly when its row number is `j` and `b' = b`. -/
theorem row_lands (idx : IVec Cert.ReferenceIdeal.S131072x1 32) (e : Fin 131072) (b' : Fin 1024) (j : Fin 8192)
    (b : Fin 1024) :
    scatter_S8192x1024_S131072x1_S131072x1024_1_0_0_1.resultIdx? (ix2 e b') idx = some (ix2 j b) ↔
      (idx (ix2 e (0 : Fin 1))).toInt = (j.val : ℤ) ∧ b' = b := by
  rw [Cert.LibScatterConst.resultIdx?_eq_some_iff]
  constructor
  · intro h
    have h0 := h ⟨0, by decide⟩
    have h1 := h ⟨1, by decide⟩
    rw [row_start_zero, row_window_zero] at h0
    rw [row_start_one, row_window_one] at h1
    have h0' : (idx (ix2 e (0 : Fin 1))).toInt + ((0 : ℕ) : ℤ) = ((j.val : ℕ) : ℤ) := h0
    have h1' : (0 : ℤ) + ((b'.val : ℕ) : ℤ) = ((b.val : ℕ) : ℤ) := h1
    refine ⟨by omega, Fin.ext (by omega)⟩
  · rintro ⟨h0, hb⟩ (a : Fin 2)
    have hb' : b'.val = b.val := congrArg Fin.val hb
    match a with
    | ⟨0, _⟩ =>
      rw [row_start_zero, row_window_zero]
      show (idx (ix2 e (0 : Fin 1))).toInt + ((0 : ℕ) : ℤ) = ((j.val : ℕ) : ℤ)
      omega
    | ⟨1, _⟩ =>
      rw [row_start_one, row_window_one]
      show (0 : ℤ) + ((b'.val : ℕ) : ℤ) = ((b.val : ℕ) : ℤ)
      omega

/-- THE ROW SCATTER READ AT `(j, b)`: the operand's element plus the sum, over the updates `e` whose row number is
    `j`, of the update's element in column `b`. The map `e ↦ (e, b)` carries the set of such `e` onto the set of
    update indices landing on `(j, b)`: an update index `(e, b')` lands there only with `b' = b`. -/
theorem row_scatter_apply (x : FVec Ideal Cert.ReferenceIdeal.S8192x1024 .f32) (idx : IVec Cert.ReferenceIdeal.S131072x1 32)
    (upd : FVec Ideal Cert.ReferenceIdeal.S131072x1024 .f32) (j : Fin 8192) (b : Fin 1024) :
    Host.scatterAdd (F := Ideal) scatter_S8192x1024_S131072x1_S131072x1024_1_0_0_1 x idx upd (ix2 j b)
      = x (ix2 j b) + ∑ e ∈ Finset.univ.filter (fun e : Fin 131072 =>
          (idx (ix2 e (0 : Fin 1))).toInt = (j.val : ℤ)), upd (ix2 e b) := by
  rw [scatterAdd_apply]
  refine congrArg (fun t => x (ix2 j b) + t) ?_
  symm
  refine Finset.sum_bij (fun e _ => ix2 e b) ?_ ?_ ?_ ?_
  · intro e he
    rw [Finset.mem_filter] at he
    exact Finset.mem_filter.2 ⟨Finset.mem_univ _, (row_lands idx e b j b).2 ⟨he.2, rfl⟩⟩
  · intro e₁ _ e₂ _ h
    exact congrFun h ⟨0, by decide⟩
  · intro q hq
    obtain ⟨e, b', rfl⟩ : ∃ (e : Fin 131072) (b' : Fin 1024), q = ix2 e b' := ⟨q 0, q 1, eq_ix2 q⟩
    rw [Finset.mem_filter] at hq
    obtain ⟨hrow, hb⟩ := (row_lands idx e b' j b).1 hq.2
    exact ⟨e, Finset.mem_filter.2 ⟨Finset.mem_univ _, hrow⟩, by subst hb; rfl⟩
  · intro e _
    rfl

end Row

end Cert.ScatterRead
-- ==== Proof.DenseRead.lean ====
/-
  The kernel's dense connectivity matrix, read at one entry.

  On the host the kernel's program turns the two index arrays `p` and `q` (one pair per edge) into an 8192 × 8192
  matrix: it wraps each index that is negative (adding 8192), lays the two wrapped arrays side by side as the rows
  `(p e, q e)` of a [131072, 2] array, scatter-adds the constant with word `0x42C80000` at each row's pair into a
  matrix of the constant with word `0x00000000`, and changes the format of the result.

  This module reads that matrix at an entry `(k, j)`, at the ideal instance (a float an extended real, a change of
  format the identity), under the hypothesis that every index lies in [0, 8192): the entry is the zero constant plus
  the update constant once for every edge `e` with `p e = k` and `q e = j`. The steps:

    • an index that is not negative is not below zero, so the comparison's bit is clear and the wrap's select takes
      the index itself;
    • the pair array at column 0 lies in the first piece of the concatenation and at column 1 in the second, each a
      one-column copy of a wrapped index array, which at row `e` reads that array at `e`;
    • the two constant operands read their constant at every index;
    • a scatter-add read at an entry is the operand's entry plus the sum of the updates of the edges whose pair is that
      entry (proved for arbitrary operands in the module imported for it), and the set of those edges is rewritten
      from the pair array's columns to `p` and `q` themselves.

  Everything is stated at a symbolic index; the two constants stay as the words they are printed with.
-/
import proofs.«431134_j2121713844698_1_alg».proof.Proof.KernelHostTerm
import proofs.«431134_j2121713844698_1_alg».proof.Proof.ScatterRead
import Idealize.ShloMosaic.Lib.ValueIdx
import Idealize.ShloMosaic.Lib.Pipeline.Value
import Idealize.ShloMosaic.Lib.IdealHost
import Idealize.ShloMosaic.Lib.Affine

noncomputable section

namespace Cert.KernelIdeal.DenseRead

open Idealize.ShloMosaic Idealize.ShloMosaic.ValueIdx Cert.KernelIdeal Cert.KernelIdeal.Facts₀

variable [Cert.KernelIdeal.Facts]

/-! ## The wrap of an index that is not negative -/

/-- The bit of the signed comparison `w < 0` is clear when `w`, read as a signed integer, is not negative. -/
theorem slt_zero_of_nonneg (w : BitVec 32) (h : 0 ≤ w.toInt) : IntOp.cmpi .slt w 0#32 = 0#1 := by
  refine eq_zero_of_ne_one fun h1 => ?_
  have h2 : w.toInt < (0#32 : BitVec 32).toInt := IntOp.cmpi_slt.1 h1
  rw [show (0#32 : BitVec 32).toInt = 0 from by decide] at h2
  omega

/-- Where the index is not negative, `where(p < 0, p + 8192, p)` takes its last operand: the wrap reads `p` itself. -/
theorem wrap_apply_of_nonneg (p : IVec S131072 32) (e : S131072.Idx) (h : 0 ≤ (p e).toInt) :
    Term.wrap p e = p e := by
  show Scalar.select (IntOp.cmpi .slt (p e) 0#32) (IntOp.addi (p e) 8192#32) (p e) = p e
  rw [slt_zero_of_nonneg _ h, select_zero]

/-! ## The pair array read at a row and a column

The pair array is the concatenation, along the column axis, of two one-column arrays, each the wrapped index array
with a unit axis added. Column 0 therefore falls in the first piece and column 1 in the second, both at the piece's
only column, and a one-column copy of a vector read at (e, 0) is the vector at e. -/

/-- A vector laid out as one column reads, at row `e` of that column, the vector's entry `e`. -/
theorem column_apply (v : IVec S131072 32) (e : Fin 131072) :
    broadcastInDim S131072x1 ![0] bcast_S131072_S131072x1_0 v (ix2 e (0 : Fin 1)) = v (ix1 e) := by
  refine broadcastInDim_apply _ _ _ (ix2 e (0 : Fin 1)) (ix1 e) ?_
  intro a
  match a with
  | ⟨0, _⟩ => rfl

/-- Column 0 of the pair array is the wrapped first index array. -/
theorem pairs_apply_zero (p q : IVec S131072 32) (e : Fin 131072) :
    Term.pairs p q (ix2 e (0 : Fin 2)) = Term.wrap p (ix1 e) := by
  unfold Term.pairs
  refine Eq.trans (concatenate_pair_apply_left (t := S131072x2) 1 _ _
    concatenates_S131072x1_S131072x1_S131072x2_d1 (ix2 e (0 : Fin 2)) rfl (ix2 e (0 : Fin 1)) ?_) (column_apply _ e)
  intro b
  match b with
  | ⟨0, _⟩ => rfl
  | ⟨1, _⟩ => rfl

/-- Column 1 of the pair array is the wrapped second index array: one column past the first piece's single column. -/
theorem pairs_apply_one (p q : IVec S131072 32) (e : Fin 131072) :
    Term.pairs p q (ix2 e (1 : Fin 2)) = Term.wrap q (ix1 e) := by
  unfold Term.pairs
  refine Eq.trans (concatenate_pair_apply_right (t := S131072x2) 1 _ _
    concatenates_S131072x1_S131072x1_S131072x2_d1 (ix2 e (1 : Fin 2)) rfl rfl (ix2 e (0 : Fin 1)) ?_ ?_) (column_apply _ e)
  · intro b hb
    match b, hb with
    | ⟨0, _⟩, _ => rfl
    | ⟨1, _⟩, hb => exact absurd rfl hb
  · rfl

/-- Under the range hypotheses the pair of edge `e` is `(p e, q e)`: neither index is wrapped. -/
theorem pairs_toInt (p q : IVec S131072 32)
    (hp : ∀ e : S131072.Idx, 0 ≤ (p e).toInt ∧ (p e).toInt < 8192)
    (hq : ∀ e : S131072.Idx, 0 ≤ (q e).toInt ∧ (q e).toInt < 8192) (e : Fin 131072) :
    Term.pairs p q (ix2 e (0 : Fin 2)) = p (ix1 e) ∧ Term.pairs p q (ix2 e (1 : Fin 2)) = q (ix1 e) :=
  ⟨(pairs_apply_zero p q e).trans (wrap_apply_of_nonneg p _ (hp _).1),
   (pairs_apply_one p q e).trans (wrap_apply_of_nonneg q _ (hq _).1)⟩

/-! ## The two constant operands -/

/-- The matrix the scatter adds into is the constant with word `0x00000000` at every entry. -/
theorem zeros_apply (i : S8192x8192.Idx) :
    broadcastInDim S8192x8192 ![] bcast_S_S8192x8192 (constant (F := Ideal) S_ .f32 0x00000000#32) i
      = Ideal.ofBits .f32 0x00000000#32 := by
  rw [broadcastInDim_scalar_apply, constant_apply]

/-- Every edge's update is the constant with word `0x42C80000`. -/
theorem updates_apply (i : S131072.Idx) :
    broadcastInDim S131072 ![] bcast_S_S131072 (constant (F := Ideal) S_ .f32 0x42C80000#32) i
      = Ideal.ofBits .f32 0x42C80000#32 := by
  rw [broadcastInDim_scalar_apply, constant_apply]

/-! ## The dense matrix at an entry -/

/-- Entry `(k, j)` of the dense matrix is the zero constant plus the update constant once for every edge `e` with
    `p e = k` and `q e = j`: the format change is the identity on extended reals, the scatter-add at an entry is the
    operand's entry plus the updates of the edges whose pair is that entry, and under the range hypotheses an edge's
    pair is `(p e, q e)`. -/
theorem dense_apply (p q : IVec S131072 32)
    (hp : ∀ e : S131072.Idx, 0 ≤ (p e).toInt ∧ (p e).toInt < 8192)
    (hq : ∀ e : S131072.Idx, 0 ≤ (q e).toInt ∧ (q e).toInt < 8192) (k j : Fin 8192) :
    Term.dense (F := Ideal) p q (ix2 k j)
      = Ideal.ofBits .f32 0x00000000#32
        + ∑ e ∈ Finset.univ.filter (fun e : Fin 131072 => (p (ix1 e)).toInt = (k.val : ℤ) ∧ (q (ix1 e)).toInt = (j.val : ℤ)),
            Ideal.ofBits .f32 0x42C80000#32 := by
  unfold Term.dense
  rw [truncf_apply, Cert.ScatterRead.pair_scatter_apply, zeros_apply]
  refine congrArg (Ideal.ofBits .f32 0x00000000#32 + ·) ?_
  refine Finset.sum_congr (Finset.filter_congr fun e _ => ?_) fun e _ => updates_apply _
  rw [(pairs_toInt p q hp hq e).1, (pairs_toInt p q hp hq e).2]

end Cert.KernelIdeal.DenseRead

end
-- ==== Proof.RefRead.lean ====
/-
  THE REFERENCE'S RESULT READ AT ONE INDEX, over the extended reals.

  The reference computes `segment_sum((100 · take(x, p, axis = 1)).T, q, 8192).T`.  Under the hypothesis that every
  index `p e` lies in `[0, 8192)`, its entry at (batch `b`, segment `j`) is

      0 + ∑ over the edges e with q e = j of 100 · x[b, p e].

  The steps, each read at a symbolic index:
  • the two transposes swap the coordinates;
  • the scatter-add's operands: the zeros read as the constant 0 (never evaluated), the index column `[e, 0]` reads `q e`;
  • `take`: a non-negative index is not wrapped around (the compare with 0 fails, the select keeps `p`); the range test
    `0 ≤ index ≤ 8191` holds at every edge, so its `and`-reduction along the unit axis is 1 and the select keeps the
    gathered column; the gather of whole columns of `x` at the start column `[e, 0]` reads `x[b, clamp(p e)]`, and the
    clamp into `[0, 8191]` does nothing to an index already there;
  • the scatter-add itself, read at an index over abstract operands, is the imported theorem; the sum's index set and
    its terms are then rewritten edge by edge.
-/
import proofs.«431134_j2121713844698_1_alg».proof.Proof.RefTerm
import proofs.«431134_j2121713844698_1_alg».proof.Proof.ScatterRead
import Idealize.ShloMosaic.Lib.ValueIdx
import Idealize.ShloMosaic.Lib.ValueLayout
import Idealize.ShloMosaic.Lib.ReduceAll

noncomputable section

open scoped BigOperators

namespace Cert.ReferenceIdeal.RefRead

open Idealize.ShloMosaic Idealize.ShloMosaic.ValueIdx Cert.ReferenceIdeal Cert.ReferenceIdeal.Facts₀

variable {α : Type}

/-! ## An `and`-reduction of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, IntOp.andi_eq_one.2 ⟨rfl, h a (List.mem_cons.2 (Or.inl rfl))⟩]
    exact foldl_andi_one f l fun n hn => h n (List.mem_cons.2 (Or.inr hn))

/-- A reduction by `and`, from 1, of an array of ones is 1 at every result index, whatever the reduced axes. -/
theorem reduce_andi_of_all_one {s t u : Shape} {axes : List (Fin s.rank)} (x : s.Idx → BitVec 1)
    (init : u.Idx → BitVec 1) (h : s.ReducesTo axes t) (hu : 0 < u.numel) (hinit : init (Shape.Idx.first hu) = 1#1)
    (hx : ∀ i, x i = 1#1) (j : t.Idx) : Host.reduce IntOp.andi x init h hu j = 1#1 := by
  rw [Host.reduce_eq_foldl, hinit]
  exact foldl_andi_one x _ fun i _ => hx i

/-! ## A gather of whole columns of a matrix

The operand is a matrix `[R, N]`, the start indices a column `[M, 1]`, the slices whole columns `[R, 1]` with the
column axis collapsed: result element `(b, e)` is the operand at row `b` and at the column the start index `[e, 0]`
names, read signed and clamped into `[0, N − 1]`. -/

/-- Those dimension numbers (offset axis 0, collapsed axis 1, start index map `[1]`, index vector axis 1). -/
abbrev colDims (R N M : Nat) (wf : GatherDims.WF ⟨2, ![R, N]⟩ ⟨2, ![M, 1]⟩ ⟨2, ![R, M]⟩ [0] [1] [] [1] [] 1 ![R, 1]) :
    GatherDims ⟨2, ![R, N]⟩ ⟨2, ![M, 1]⟩ ⟨2, ![R, M]⟩ where
  offsetDims := [0]
  collapsedSliceDims := [1]
  operandBatchingDims := []
  startIndicesBatchingDims := []
  startIndexMap := [1]
  indexVectorDim := 1
  sliceSizes := ![R, 1]
  wf := wf

section Col
variable {R N M w : Nat}
  (wf : GatherDims.WF ⟨2, ![R, N]⟩ ⟨2, ![M, 1]⟩ ⟨2, ![R, M]⟩ [0] [1] [] [1] [] 1 ![R, 1])
  (idx : IVec ⟨2, ![M, 1]⟩ w) (b : Fin R) (e : Fin M)

/-- On the row axis the operand index is the result's row: no start (the axis is not in the start index map), no
    batching, and the offset coordinate is the result's coordinate on its one offset axis. -/
theorem operandIdx_row : ((colDims R N M wf).operandIdx (ix2 b e) idx (0 : Fin 2)).val = b.val := by
  show (colDims R N M wf).start (ix2 b e) idx (0 : Fin 2) + (colDims R N M wf).batchCoord (ix2 b e) (0 : Fin 2)
      + (colDims R N M wf).offCoord (ix2 b e) (0 : Fin 2) = b.val
  have h1 : (0 : Fin 2) ∉ ([1] : List (Fin 2)) := by decide
  have hs : (colDims R N M wf).start (ix2 b e) idx (0 : Fin 2) = 0 := by
    unfold GatherDims.start
    exact dif_neg h1
  have hk : (0 : Fin 2) ∈ (colDims R N M wf).sKept :=
    ((colDims R N M wf).mem_sKept (0 : Fin 2)).2 ⟨h1, List.not_mem_nil⟩
  have ho : (colDims R N M wf).offCoord (ix2 b e) (0 : Fin 2) = b.val := by
    unfold GatherDims.offCoord
    exact (dif_pos hk).trans rfl
  rw [hs, GatherDims.batchCoord_eq_zero _ _ _ List.not_mem_nil, ho, Nat.zero_add]

/-- On the column axis the operand index is the clamped start index read at `[e, 0]`: the axis is collapsed, so it has
    no offset, and there is no batching. -/
theorem operandIdx_col :
    ((colDims R N M wf).operandIdx (ix2 b e) idx (1 : Fin 2)).val
      = min (idx (ix2 e (0 : Fin 1))).toInt.toNat (N - 1) := by
  show (colDims R N M wf).start (ix2 b e) idx (1 : Fin 2) + (colDims R N M wf).batchCoord (ix2 b e) (1 : Fin 2)
      + (colDims R N M wf).offCoord (ix2 b e) (1 : Fin 2) = _
  have h1 : (1 : Fin 2) ∈ (colDims R N M wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos h1]
  have hsi : (colDims R N M wf).siIdx (ix2 b e) ⟨List.idxOf (1 : Fin 2) (colDims R N M wf).startIndexMap,
      List.idxOf_lt_length_iff.2 h1⟩ = ix2 e (0 : Fin 1) := by
    funext c; refine Fin.ext ?_
    match c with
    | ⟨0, _⟩ => rfl
    | ⟨1, _⟩ => rfl
  rw [hsi]
  rfl

/-- THE COLUMN GATHER READ AT `(b, e)`: the operand at row `b`, column the start index `[e, 0]` clamped. -/
theorem gather_col_apply (hN : 0 < N) (x : (⟨2, ![R, N]⟩ : Shape).Idx → α) :
    Host.gather (colDims R N M wf) x idx (ix2 b e)
      = x (ix2 b ⟨min (idx (ix2 e (0 : Fin 1))).toInt.toNat (N - 1), by omega⟩) := by
  unfold Host.gather
  congr 1
  funext a
  refine Fin.ext ?_
  match a with
  | ⟨0, _⟩ => exact operandIdx_row wf idx b e
  | ⟨1, _⟩ => exact operandIdx_col wf idx b e

end Col

variable [Cert.ReferenceIdeal.Facts]

/-! ## The reference's layout operations at an index -/

/-- The outer transpose: the result at `(b, j)` is the scattered array at `(j, b)`. -/
theorem transpose_out_apply (y : S8192x1024.Idx → α) (b : Fin 1024) (j : Fin 8192) :
    transpose S1024x8192 [1, 0] y transposes_S8192x1024_S1024x8192_1_0 (ix2 b j) = y (ix2 j b) :=
  transpose_ix2_apply y _ b j

/-- The inner transpose: the update at `(e, b)` is the scaled columns at `(b, e)`. -/
theorem transpose_upd_apply (y : S1024x131072.Idx → α) (e : Fin 131072) (b : Fin 1024) :
    transpose S131072x1024 [1, 0] y transposes_S1024x131072_S131072x1024_1_0 (ix2 e b) = y (ix2 b e) :=
  transpose_ix2_apply y _ e b

/-- An array of edges laid as a column `[131072, 1]` reads, at any index, the array at the index's first
    coordinate. -/
theorem column_apply (v : S131072.Idx → α) (i : S131072x1.Idx) :
    broadcastInDim S131072x1 ![0] bcast_S131072_S131072x1_0 v i = v (ix1 (i 0)) :=
  broadcastInDim_apply _ _ v i (ix1 (i 0)) fun a => match a with | ⟨0, _⟩ => rfl

/-- The same at `[e, 0]`. -/
theorem column_apply_ix2 (v : S131072.Idx → α) (e : Fin 131072) :
    broadcastInDim S131072x1 ![0] bcast_S131072_S131072x1_0 v (ix2 e (0 : Fin 1)) = v (ix1 e) :=
  column_apply v (ix2 e (0 : Fin 1))

/-- An array of edges copied into every row of `[1024, 131072]` reads, at `(b, e)`, the array at `e`. -/
theorem rows_apply (m : S131072.Idx → α) (b : Fin 1024) (e : Fin 131072) :
    broadcastInDim S1024x131072 ![1] bcast_S131072_S1024x131072_1 m (ix2 b e) = m (ix1 e) :=
  broadcastInDim_apply _ _ m (ix2 b e) (ix1 e) fun a => match a with | ⟨0, _⟩ => rfl

/-- The scatter-add's initial array reads the constant 0 everywhere (as a bit pattern read ideally: not evaluated). -/
theorem zeros_apply (i : S8192x1024.Idx) :
    broadcastInDim S8192x1024 ![] bcast_S_S8192x1024 (constant (F := Ideal) S_ .f32 0x00000000#32) i
      = Ideal.ofBits .f32 0x00000000#32 := rfl

/-- The factor reads the constant 100 everywhere (likewise a bit pattern read ideally). -/
theorem hundred_apply (i : S1024x131072.Idx) :
    broadcastInDim S1024x131072 ![] bcast_S_S1024x131072 (constant (F := Ideal) S_ .f32 0x42C80000#32) i
      = Ideal.ofBits .f32 0x42C80000#32 := rfl

/-! ## `take` under the range hypothesis -/

section Take
variable (p : IVec S131072 32) (hp : ∀ e : S131072.Idx, 0 ≤ (p e).toInt ∧ (p e).toInt < 8192)
include hp

/-- A non-negative index is not wrapped: `where(p < 0, p + 8192, p)` is `p`. -/
theorem wrap_apply (i : S131072.Idx) : Term.wrap p i = p i := by
  have h0 : IntOp.cmpi .slt (p i) 0#32 = 0#1 := by
    refine eq_zero_of_ne_one fun h1 => ?_
    have h2 := IntOp.cmpi_slt.1 h1
    rw [show (0#32 : BitVec 32).toInt = 0 by decide] at h2
    have := (hp i).1
    omega
  show Scalar.select (IntOp.cmpi .slt (p i) 0#32) (IntOp.addi (p i) 8192#32) (p i) = p i
  rw [h0, select_zero]

/-- The start column reads, at any index, `p` at the index's first coordinate. -/
theorem col_apply (i : S131072x1.Idx) : Term.col p i = p (ix1 (i 0)) := by
  unfold Term.col
  rw [column_apply, wrap_apply p hp]

/-- The range test `0 ≤ index ≤ 8191` passes at every edge. -/
theorem inRange_apply (i : S131072.Idx) : Term.inRange p i = 1#1 := by
  unfold Term.inRange
  refine reduce_andi_of_all_one _ _ _ _ rfl (fun i' => ?_) i
  have hc := hp (ix1 (i' 0))
  show IntOp.andi (IntOp.cmpi .sge (Term.col p i') 0#32) (IntOp.cmpi .sle (Term.col p i') 8191#32) = 1#1
  rw [col_apply p hp i']
  refine IntOp.andi_eq_one.2 ⟨IntOp.cmpi_sge.2 ?_, IntOp.cmpi_sle.2 ?_⟩
  · rw [show (0#32 : BitVec 32).toInt = 0 by decide]
    exact hc.1
  · rw [show (8191#32 : BitVec 32).toInt = 8191 by decide]
    omega

/-- `take(x, p, axis = 1)` at `(b, e)` is `x` at row `b`, column `p e`: the test passes, so the select keeps the
    gathered column, and the gather's clamp does nothing to an index in range. -/
theorem taken_apply (x : FVec Ideal S1024x8192 .f32) (b : Fin 1024) (e : Fin 131072) :
    Term.taken (F := Ideal) x p (ix2 b e)
      = x (ix2 b (⟨((p (ix1 e)).toInt).toNat, by have := hp (ix1 e); omega⟩ : Fin 8192)) := by
  unfold Term.taken
  rw [select_apply, rows_apply, inRange_apply p hp, select_one]
  refine (gather_col_apply gather_S1024x8192_S131072x1_S1024x131072_0_1_n_n_1_1_10241_wf (Term.col p) b e
    (by decide) x).trans ?_
  refine congrArg x (congrArg (ix2 b) (Fin.ext ?_))
  show min (Term.col p (ix2 e (0 : Fin 1))).toInt.toNat (8192 - 1) = (p (ix1 e)).toInt.toNat
  rw [col_apply p hp]
  show min (p (ix1 e)).toInt.toNat (8192 - 1) = (p (ix1 e)).toInt.toNat
  have := hp (ix1 e)
  omega

/-- The scatter-add's update at `(e, b)`: a hundred times `x` at row `b`, column `p e`. -/
theorem upd_apply (x : FVec Ideal S1024x8192 .f32) (b : Fin 1024) (e : Fin 131072) :
    transpose S131072x1024 [1, 0]
        (mulf (broadcastInDim S1024x131072 ![] bcast_S_S1024x131072 (constant (F := Ideal) S_ .f32 0x42C80000#32))
          (Term.taken (F := Ideal) x p))
        transposes_S1024x131072_S131072x1024_1_0 (ix2 e b)
      = Ideal.ofBits .f32 0x42C80000#32
          * x (ix2 b (⟨((p (ix1 e)).toInt).toNat, by have := hp (ix1 e); omega⟩ : Fin 8192)) := by
  rw [transpose_upd_apply, mulf_apply, hundred_apply, taken_apply p hp]

end Take

/-! ## The result at an index -/

/-- THE REFERENCE'S RESULT AT `(b, j)`: zero plus, over the edges whose segment `q e` is `j`, a hundred times `x` at
    row `b`, column `p e`. -/
theorem out_apply (x : FVec Ideal S1024x8192 .f32) (p q : IVec S131072 32)
    (hp : ∀ e : S131072.Idx, 0 ≤ (p e).toInt ∧ (p e).toInt < 8192) (b : Fin 1024) (j : Fin 8192) :
    Term.out (F := Ideal) x p q (ix2 b j)
      = Ideal.ofBits .f32 0x00000000#32
        + ∑ e ∈ Finset.univ.filter (fun e : Fin 131072 => (q (ix1 e)).toInt = (j.val : ℤ)),
            Ideal.ofBits .f32 0x42C80000#32 * x (ix2 b (⟨((p (ix1 e)).toInt).toNat, by have := hp (ix1 e); omega⟩ : Fin 8192)) := by
  unfold Term.out
  rw [transpose_out_apply, Cert.ScatterRead.row_scatter_apply, zeros_apply]
  refine congrArg (fun t => Ideal.ofBits .f32 0x00000000#32 + t) ?_
  refine Finset.sum_congr (Finset.filter_congr fun e _ => by rw [column_apply_ix2]) fun e _ => ?_
  exact upd_apply p hp x b e

end Cert.ReferenceIdeal.RefRead

end
-- ==== Proof.Bridge.lean ====
/-
  The two results are one function of the arguments.

  The kernel's: row `b` of `x` against column `j` of the dense matrix, which holds at (k, j) one hundred per edge whose
  pair of indices is (k, j). The reference's: one hundred times `x (b, pre e)`, summed over the edges `e` with
  `post e = j`. With every index in range, the dense form regroups edge by edge into the reference's (the law of
  SumLaw.lean); the zero both programs start their sums from is `0`.
-/
import proofs.«431134_j2121713844698_1_alg».proof.Proof.SumLaw
import proofs.«431134_j2121713844698_1_alg».proof.Proof.DenseRead
import proofs.«431134_j2121713844698_1_alg».proof.Proof.RefRead

noncomputable section

namespace Cert.Bridge

open Idealize.ShloMosaic Idealize.ShloMosaic.ValueIdx

/-- Row by column against the dense connectivity is the reference's segment sum, index by index. -/
theorem dense_product_eq_out [Cert.KernelIdeal.Facts] [Cert.ReferenceIdeal.Facts]
    (x : FVec Ideal Cert.ReferenceIdeal.S1024x8192 .f32) (p q : IVec Cert.ReferenceIdeal.S131072 32)
    (hp : ∀ e : Cert.ReferenceIdeal.S131072.Idx, 0 ≤ (p e).toInt ∧ (p e).toInt < 8192)
    (hq : ∀ e : Cert.ReferenceIdeal.S131072.Idx, 0 ≤ (q e).toInt ∧ (q e).toInt < 8192) :
    (fun i : Cert.ReferenceIdeal.S1024x8192.Idx =>
        ∑ k : Fin 8192, x (ix2 (i 0) k) * Cert.KernelIdeal.Term.dense (F := Ideal) p q (ix2 k (i 1)))
      = Cert.ReferenceIdeal.Term.out (F := Ideal) x p q := by
  funext i
  obtain ⟨b, j, rfl⟩ : ∃ (b : Fin 1024) (j : Fin 8192), i = ix2 b j := ⟨i 0, i 1, eq_ix2 i⟩
  rw [Cert.ReferenceIdeal.RefRead.out_apply x p q hp b j]
  show ∑ k : Fin 8192, x (ix2 b k) * Cert.KernelIdeal.Term.dense (F := Ideal) p q (ix2 k j) = _
  simp only [Cert.KernelIdeal.DenseRead.dense_apply p q hp hq, Cert.SumLaw.ofBits_zero, zero_add]
  exact Cert.SumLaw.dense_eq_edges (fun k => x (ix2 b k)) (fun e => (p (ix1 e)).toInt) (fun e => (q (ix1 e)).toInt)
    (fun e => hp (ix1 e)) _ Cert.SumLaw.hundred_nonneg (j.val : ℤ)

end Cert.Bridge

end
-- ==== Proof.lean ====
/-
  A sparse layer with fixed connectivity: edge `e` carries weight 100 from input `pre e` to output `post e`, and the
  result is `y (b, j) = ∑ {e | post e = j} 100 * x (b, pre e)`.

  The kernel's program densifies the connectivity on the host — a scatter-add of one hundred at every pair
  `(pre e, post e)` into an 8192 × 8192 matrix of zeros — and multiplies `x` by that matrix on the matrix unit, 512
  contracted coordinates at a time into a scratch block that is copied to the result's block. The reference gathers the
  columns `pre e` of `x`, scales them and adds them into the segments `post e`. Over the extended reals, for indices in
  range, both are the sum above: a product distributes over a sum of nonnegative weights whatever the other factor is, and
  regrouping the double sum by edges leaves one column per edge. The statement is made for `0 ≤ pre e, post e < 8192`:
  outside that range the reference reads a NaN (an index past the columns of `x`) or drops the edge (a negative segment),
  where the kernel's scatter counts a negative index from the end.

  The three frames: the kernel's two are the generated frame runs; the reference's is its run with the result dropped.
  The ideal pass rewrote nothing, so the idealization is the program's own text.
-/
import proofs.«431134_j2121713844698_1_alg».proof.Defs
import proofs.«431134_j2121713844698_1_alg».proof.Proof.Gen.Kernel
import proofs.«431134_j2121713844698_1_alg».proof.Proof.Gen.Kernel.Frame
import proofs.«431134_j2121713844698_1_alg».proof.Proof.Gen.KernelIdeal
import proofs.«431134_j2121713844698_1_alg».proof.Proof.Gen.KernelIdeal.Frame
import proofs.«431134_j2121713844698_1_alg».proof.Proof.Gen.ReferenceIdeal
import proofs.«431134_j2121713844698_1_alg».proof.Proof.Gen.Pre_finite_inputs
import proofs.«431134_j2121713844698_1_alg».proof.Proof.KernelResult
import proofs.«431134_j2121713844698_1_alg».proof.Proof.RefRun
import proofs.«431134_j2121713844698_1_alg».proof.Proof.PreRange
import proofs.«431134_j2121713844698_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the result at one function of arguments that agree and satisfy the precondition. -/
theorem algebraic : Cert.algebraic_KernelIdeal_ReferenceIdeal := by
  intro m ρ m' ρ' hpre hagree
  refine ⟨fun c => Cert.KernelIdeal.Sum.result m c, Cert.KernelIdeal.Sum.run_result m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨hp, hq⟩ := Cert.PreRange.range_of_pre _ _ _ (hpre c)
  exact (Cert.Bridge.dense_product_eq_out _ _ _ hp hq).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
